-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel

variable [Facts]

def fn {F : FTy → Type} [FloatOps F] (main_arg0 : FVec F S8x4096x256 .f32) (main_arg1 : FVec F S8x4096x256 .f32) (main_arg2 : FVec F S8x4096x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S8x4096x256 .f32 := Host.absf main_arg2
  let main_cst_2 : FVec F S_ .f32 := constant S_ .f32 0x7F800000#32
  let main_v10 : FVec F S8x4096x256 .f32 := broadcastInDim S8x4096x256 ![] bcast_S_S8x4096x256 main_cst_2
  let main_v11 : IVec S8x4096x256 1 := cmpf .olt main_v9 main_v10
  let main_c_3 : IVec S_ 1 := constantI S_ 1 1#1
  let main_v12 : IVec S_ 1 := (fun x v => Host.reduce IntOp.andi x v reducesTo_S8x4096x256_S_d0_1_2 h_S_) main_v11 main_c_3
  let main_v13 : IVec S_ 1 := andi main_v8 main_v12
  main_v13
-- ==== Kernel.lean ====
abbrev S8x4096x256 : Shape := ⟨3, ![8, 4096, 256]⟩
abbrev S8x256x256 : Shape := ⟨3, ![8, 256, 256]⟩
abbrev S1x1024x256 : Shape := ⟨3, ![1, 1024, 256]⟩
abbrev S1x256x256 : Shape := ⟨3, ![1, 256, 256]⟩
abbrev S256x256 : Shape := ⟨2, ![256, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 5
  | .vmem => 13
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x256x256, .f32⟩
  | .hbm, ⟨4, _⟩ => ⟨S8x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S1x1024x256, .f32⟩
  | .local _ .vmem, ⟨8, _⟩ => ⟨S1x1024x256, .f32⟩
  | .local _ .vmem, ⟨9, _⟩ => ⟨S1x256x256, .f32⟩
  | .local _ .vmem, ⟨10, _⟩ => ⟨S1x256x256, .f32⟩
  | .local _ .vmem, ⟨11, _⟩ => ⟨S1x1024x256, .f32⟩
  | .local _ .vmem, ⟨12, _⟩ => ⟨S1x1024x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_12 : BitVec 32 := 0#32
  let v25 : BitVec 1 := Scalar.cmpi .ne v24 c0_i32_12
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  shapeCasts_S1024x256_S1x1024x256 : S1024x256.ShapeCasts S1x1024x256
  dot_S1024x256_S1024x256_S256x256_0_0_1_1_n_n_wf : DotDims.WF S1024x256 S1024x256 S256x256 [0] [0] [1] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x4096x256.size a
  hwx0_0 : ∀ i : grid0.Coords, EltTy.bits .f32 = 32 ∨ (Rect.block (s := S8x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x4096x256.size a
  hwx0_1 : ∀ i : grid0.Coords, EltTy.bits .f32 = 32 ∨ (Rect.block (s := S8x4096x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S8x256x256.size a
  hwx0_2 : ∀ i : grid0.Coords, EltTy.bits .f32 = 32 ∨ (Rect.block (s := S8x256x256) S1x256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x4096x256.size a
  hwx1_0 : ∀ i : grid1.Coords, EltTy.bits .f32 = 32 ∨ (Rect.block (s := S8x4096x256) S1x1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S8x256x256.size a
  hwx1_1 : ∀ i : grid1.Coords, EltTy.bits .f32 = 32 ∨ (Rect.block (s := S8x256x256) S1x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x256.size a ≤ S8x4096x256.size a
  hwx1_2 : ∀ i : grid1.Coords, EltTy.bits .f32 = 32 ∨ (Rect.block (s := S8x4096x256) S1x1024x256.size (cc1_transform_2 i) (hinb1_2 i)).WholeWords (EltTy.packing .f32)

variable [Facts₀]

def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩
abbrev S8x256x256 : Shape := ⟨3, ![8, 256, 256]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S8x4096x256, .f32⟩
  | .hbm, ⟨12, _⟩ => ⟨S8x4096x256, .f32⟩
  | .hbm, ⟨13, _⟩ => ⟨S8x4096x256, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x256, .f32⟩
  | .hbm, ⟨22, _⟩ => ⟨S8x4096x256, .f32⟩
  | .hbm, ⟨23, _⟩ => ⟨S8x256x256, .f32⟩
  | .hbm, ⟨24, _⟩ => ⟨S8x4096x256, .f32⟩
  | .hbm, ⟨25, _⟩ => ⟨S_, .f32⟩
  | .hbm, ⟨26, _⟩ => ⟨S8x4096x256, .f32⟩
  | .hbm, ⟨27, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x256_0_1_2 : S8x4096x1.BroadcastsInDim S8x4096x256 (![0, 1, 2] : Fin 3 → Fin S8x4096x256.rank)
  bcast_S_S8x4096x256 : S_.BroadcastsInDim S8x4096x256 (![] : Fin 0 → Fin S8x4096x256.rank)
  dot_S8x4096x256_S8x4096x256_S8x256x256_1_1_2_2_0_0_wf : DotDims.WF S8x4096x256 S8x4096x256 S8x256x256 [1] [1] [2] [2] [0] [0]
  dot_S8x4096x256_S8x256x256_S8x4096x256_2_1_1_2_0_0_wf : DotDims.WF S8x4096x256 S8x256x256 S8x4096x256 [2] [1] [1] [2] [0] [0]

variable [Facts₀]

def dot_S8x4096x256_S8x4096x256_S8x256x256_1_1_2_2_0_0 : DotDims S8x4096x256 S8x4096x256 S8x256x256 where
  lhsContracting := [1]
  rhsContracting := [1]
  lhsNonContracting := [2]
  rhsNonContracting := [2]
  lhsBatch := [0]
  rhsBatch := [0]
  wf := dot_S8x4096x256_S8x4096x256_S8x256x256_1_1_2_2_0_0_wf
def dot_S8x4096x256_S8x256x256_S8x4096x256_2_1_1_2_0_0 : DotDims S8x4096x256 S8x256x256 S8x4096x256 where
  lhsContracting := [2]
  rhsContracting := [1]
  lhsNonContracting := [1]
  rhsNonContracting := [2]
  lhsBatch := [0]
  rhsBatch := [0]
  wf := dot_S8x4096x256_S8x256x256_S8x4096x256_2_1_1_2_0_0_wf

class Facts : Prop extends Facts₀ where

variable [Facts]
-- ==== Proof.Bits.KvData.lean ====
/-
  The first launch (keys against values), the quantities its proof is stated over.

  The grid is (batch b, tile m) with m the fast axis: point t is batch t / 4, tile t % 4. At every point the body adds
  one tile's contribution to a [256, 256] accumulator it keeps in scratch memory: the accumulator is reset to zero first
  when m = 0, and copied to the output block when m = 3, the only points whose output block is written back.
  `kvAcc c n` is the accumulator after point n, by recursion on n; the output block after a point with m = 3 is that
  accumulator reshaped to [1, 256, 256].
-/
import proofs.«113710_j39152921870872_1_alg».proof.Proof.Gen.Kernel.Launch
import proofs.«113710_j39152921870872_1_alg».proof.Proof.Gen.Kernel.Skeleton
import proofs.«113710_j39152921870872_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The key window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- So does the value window's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The accumulator (the kernel's scratch buffer) after point `n`: this point's tile added to zero when the point opens a
    batch (n % 4 = 0), else to what the point before left. -/
def kvAcc (c : Dev nD) : (n : ℕ) → n < cfg0.N → Vec F S256x256 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (kvAcc c n (Nat.lt_of_succ_lt hn))

/-- At a point that opens a batch the accumulator starts from zero. -/
theorem kvAcc_open (c : Dev nD) (t : Fin cfg0.N) (h : t.val % 4 = 0) :
    kvAcc V c t.val t.isLt = k0_pay2 (iblk0 V c 0 t) (iblk0 V c 1 t) (k0_pay1 (F := F)) := by
  obtain ⟨n, hn⟩ := t
  cases n with
  | zero => rfl
  | succ n => exact if_pos h

/-- At any other point it continues from the point before. -/
theorem kvAcc_step (c : Dev nD) (t : Fin cfg0.N) (h : ¬t.val % 4 = 0) :
    kvAcc V c t.val t.isLt = k0_pay2 (iblk0 V c 0 t) (iblk0 V c 1 t) (kvAcc V c (t.val - 1) (Nat.lt_of_le_of_lt (Nat.sub_le _ _) t.isLt)) := by
  obtain ⟨n, hn⟩ := t
  cases n with
  | zero => exact absurd (Nat.zero_mod _) h
  | succ n => exact if_neg h

/-- The scratch buffer, as the body is handed it. -/
abbrev scM : Memref sig .tc .vmem S256x256 .f32 := Memref.whole cc0_scratch0

/-- The second launch's staging buffers, which are idle during the first launch: each whole at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region: the scratch buffer at some contents, the idle staging buffers, the generator register. -/
theorem PhiA0_eq (c : Dev nD) :
    (Pipeline.ΦA spec0 c : sProp 𝕄)
      = iprop(((∃ d, owns (c : Thread nD τ) scM fullShare d) ∗ restS c) ∗ (∃ r, prngReg c r)) := by
  unfold Pipeline.ΦA restS; rw [scopedRest0_eq]; simp only [scM, owns_whole]; try rfl

/-- The region's invariant before position `n`: before the first point what the launch hands it; afterwards the same with the
    scratch buffer at the accumulator the point before left. -/
def PhiS (c : Dev nD) : (n : ℕ) → n ≤ cfg0.N → sProp 𝕄
  | 0, _ => Pipeline.ΦA spec0 c
  | n + 1, hn => iprop((owns (c : Thread nD τ) scM fullShare (kvAcc V c n hn) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (kvAcc V c n hn) ∗ restS c) ∗ (∃ r, prngReg c r)) := rfl

theorem PhiS_pos (c : Dev nD) (n : ℕ) (h : n ≤ cfg0.N) (hz : n ≠ 0) :
    PhiS V c n h = iprop((owns (c : Thread nD τ) scM fullShare (kvAcc V c (n - 1) (by omega)) ∗ restS c) ∗ (∃ r, prngReg c r)) := by
  cases n with
  | zero => exact absurd rfl hz
  | succ n => rfl

/-- The proof data of the first launch on core `c`: the arrays as found; after the body at point `t` each input's buffer at
    its block and the output's at the accumulator reshaped (meaningful where the block is written back: t % 4 = 3). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (kvAcc V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (kvAcc V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Hand

end
-- ==== Proof.Bits.KvBody.lean ====
/-
  The body of the first launch on whole buffers, in its three cases.

  The body tests two conditions of the tile coordinate m: m = 0 ("opens a batch": the accumulator is first reset to zero)
  and m = 3 ("closes a batch": the accumulator is finally copied, reshaped, into the output block). Between them it always
  reads the key and value blocks and replaces the accumulator `a` by `k0_pay2 key value a`. A point with 0 < m < 3 only
  accumulates. In every case the two input blocks are left as read; the output block is untouched unless m = 3.
-/
import proofs.«113710_j39152921870872_1_alg».proof.Proof.Gen.Kernel.Launch
import proofs.«113710_j39152921870872_1_alg».proof.Proof.Gen.Kernel.Skeleton
import proofs.«113710_j39152921870872_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile coordinate is 0. -/
abbrev condOpen (i : grid0.Coords) : Prop := (Scalar.cmpi .ne (Scalar.extui (Scalar.cmpi .eq (BitVec.ofNat 32 (i 1).val) 0#32)) 0#32) = 1#1
/-- The tile coordinate is 3. -/
abbrev condLast (i : grid0.Coords) : Prop := k0_cond2 i = 1#1

theorem hcondOpen : ∀ t : Fin cfg0.N, condOpen (grid0.coords t) ↔ t.val % 4 = 0 :=
  (by decide +kernel : ∀ t : Fin grid0.N, condOpen (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)

/-- The two zero offsets of the accumulator, however spelt, are the constant zero. -/
theorem hz2 : (![0, 0] : Fin S256x256.rank → Nat) = fun _ => 0 := by funext a; fin_cases a <;> rfl
/-- The three zero offsets of an input block are the constant zero. -/
theorem hz3 : (![0, 0, 0] : Fin S1x1024x256.rank → Nat) = fun _ => 0 := by funext a; fin_cases a <;> rfl
/-- The three zero offsets of the output block are the constant zero. -/
theorem hz3o : (![0, 0, 0] : Fin S1x256x256.rank → Nat) = fun _ => 0 := by funext a; fin_cases a <;> rfl

variable (arg5 : Memref sig .tc .vmem S256x256 .f32) (harg5 : arg5.IsWhole) in
/-- A load of the whole accumulator buffer holding `xs` reads `xs`. -/
theorem ld_acc (xs : Vec F S256x256 .f32) :
    View.readAt (Elt F) arg5.view (Rect.unit (s := S256x256) ![0, 0] S256x256.size inb_S256x256_S256x256_0_0).toLoadRect (harg5.unread xs) = xs :=
  (View.ld_unit_zero (S := S256x256) hz2 inb_S256x256_S256x256_0_0 _).trans (harg5.read_unread xs)

variable (arg2 : Memref sig .tc .vmem S1x1024x256 .f32) (harg2 : arg2.IsWhole) (arg3 : Memref sig .tc .vmem S1x1024x256 .f32) (harg3 : arg3.IsWhole) in
/-- The accumulation's payload over what the two whole-block loads read of buffers holding `x0`, `x1` is the payload
    of those contents (a load through the whole-shape rectangle at zero offsets reads the contents), at any accumulator. -/
theorem pay2_loads (x0 x1 : Vec F S1x1024x256 .f32) {a a' : Vec F S256x256 .f32} (h : a = a') :
    k0_pay2
        (View.readAt (Elt F) arg2.view (Rect.unit (s := S1x1024x256) ![0, 0, 0] S1x1024x256.size inb_S1x1024x256_S1x1024x256_0_0_0).toLoadRect (harg2.unread x0))
        (View.readAt (Elt F) arg3.view (Rect.unit (s := S1x1024x256) ![0, 0, 0] S1x1024x256.size inb_S1x1024x256_S1x1024x256_0_0_0).toLoadRect (harg3.unread x1))
        a
      = k0_pay2 x0 x1 a' := by
  have e2 : View.readAt (Elt F) arg2.view (Rect.unit (s := S1x1024x256) ![0, 0, 0] S1x1024x256.size inb_S1x1024x256_S1x1024x256_0_0_0).toLoadRect (harg2.unread x0) = x0 :=
    (View.ld_unit_zero (S := S1x1024x256) hz3 inb_S1x1024x256_S1x1024x256_0_0_0 _).trans (harg2.read_unread x0)
  have e3 : View.readAt (Elt F) arg3.view (Rect.unit (s := S1x1024x256) ![0, 0, 0] S1x1024x256.size inb_S1x1024x256_S1x1024x256_0_0_0).toLoadRect (harg3.unread x1) = x1 :=
    (View.ld_unit_zero (S := S1x1024x256) hz3 inb_S1x1024x256_S1x1024x256_0_0_0 _).trans (harg3.read_unread x1)
  rw [e2, e3, h]

/-- The whole-accumulator rectangle holds every index: a store through it, last, covers the buffer. -/
theorem cover_acc (p0 : Vec F S256x256 .f32) (L : List (View.Piece (Elt F) S256x256 .f32)) (y : S256x256.Idx) :
    ∃ pc ∈ ((⟨Rect.unit (s := S256x256) ![0, 0] S256x256.size inb_S256x256_S256x256_0_0, p0⟩ : View.Piece (Elt F) S256x256 .f32) :: L), y ∈ pc.1.set :=
  ⟨_, List.mem_cons.mpr (Or.inl rfl), View.mem_set_unit_zero (S := S256x256) hz2 inb_S256x256_S256x256_0_0 y⟩

/-- The whole-output rectangle holds every index. -/
theorem cover_out (p0 : Vec F S1x256x256 .f32) (y : S1x256x256.Idx) :
    ∃ pc ∈ ([⟨Rect.unit (s := S1x256x256) ![0, 0, 0] S1x256x256.size inb_S1x256x256_S1x256x256_0_0_0, p0⟩] : List (View.Piece (Elt F) S1x256x256 .f32)), y ∈ pc.1.set :=
  ⟨_, List.mem_cons.mpr (Or.inl rfl), View.mem_set_unit_zero (S := S1x256x256) hz3o inb_S1x256x256_S1x256x256_0_0_0 y⟩

variable (arg5 : Memref sig .tc .vmem S256x256 .f32) in
/-- What the accumulator buffer reads after a store of `w` through its whole rectangle, last, over any earlier stores and
    any prior contents: `w`. -/
theorem read_acc (f : arg5.view.ty.Contents (Elt F)) (w : Vec F S256x256 .f32) (L : List (View.Piece (Elt F) S256x256 .f32)) :
    arg5.view.read (Elt F) (arg5.view.writes (Elt F) f
      ((⟨Rect.unit (s := S256x256) ![0, 0] S256x256.size inb_S256x256_S256x256_0_0, w⟩ : View.Piece (Elt F) S256x256 .f32) :: L)) = w :=
  (View.read_writes_eq_canon arg5.view f _ (cover_acc w L)).trans
    (View.canon_cons_unit_zero (S := S256x256) hz2 inb_S256x256_S256x256_0_0 w L)

variable (arg4 : Memref sig .tc .vmem S1x256x256 .f32) in
/-- What the output buffer reads after one store of `w` through its whole rectangle, over any prior contents: `w`. -/
theorem read_out (f : arg4.view.ty.Contents (Elt F)) (w : Vec F S1x256x256 .f32) :
    arg4.view.read (Elt F) (arg4.view.writes (Elt F) f
      [(⟨Rect.unit (s := S1x256x256) ![0, 0, 0] S1x256x256.size inb_S1x256x256_S1x256x256_0_0_0, w⟩ : View.Piece (Elt F) S1x256x256 .f32)]) = w :=
  (View.read_writes_eq_canon arg4.view f _ (cover_out w)).trans
    (View.canon_unit_zero (S := S1x256x256) hz3o inb_S1x256x256_S1x256x256_0_0_0 w)

set_option maxHeartbeats 1000000 in
/-- m = 0: the accumulator, whatever it held, ends at this tile's contribution added to zero. -/
theorem sound_kv_open (c : Dev nD) (E : Set ℕ) (i : grid0.Coords)
    (arg2 : Memref sig .tc .vmem S1x1024x256 .f32) (harg2 : arg2.IsWhole) (arg3 : Memref sig .tc .vmem S1x1024x256 .f32) (harg3 : arg3.IsWhole)
    (arg4 : Memref sig .tc .vmem S1x256x256 .f32) (harg4 : arg4.IsWhole) (arg5 : Memref sig .tc .vmem S256x256 .f32) (harg5 : arg5.IsWhole)
    (hc0 : condOpen i) (hc1 : ¬condLast i)
    (x0 x1 : Vec F S1x1024x256 .f32) (d4 : Vec F S1x256x256 .f32) (K : PUnit → sProp 𝕄) :
    iprop(owns (c : Thread nD τ) arg2 fullShare x0 ∗ owns (c : Thread nD τ) arg3 fullShare x1 ∗ owns (c : Thread nD τ) arg4 fullShare d4
        ∗ (∃ d, owns (c : Thread nD τ) arg5 fullShare d)
        ∗ (iprop(owns (c : Thread nD τ) arg2 fullShare x0 ∗ owns (c : Thread nD τ) arg3 fullShare x1 ∗ owns (c : Thread nD τ) arg4 fullShare d4
            ∗ owns (c : Thread nD τ) arg5 fullShare (k0_pay2 x0 x1 (k0_pay1 (F := F)))) -∗ K ⟨⟩))
      ⊢ wp frame (wpE (defs₀ (F := F)) Variants.none c none) E (cc0__kv_kernel i arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  refine (read_acc arg5 _ _ _).trans ?_
  exact pay2_loads arg2 harg2 arg3 harg3 x0 x1 (View.readCov_unit_zero (S := S256x256) _ hz2 inb_S256x256_S256x256_0_0 _)

set_option maxHeartbeats 1000000 in
/-- 0 < m < 3: the accumulator `xs` ends at `k0_pay2 x0 x1 xs`. -/
theorem sound_kv_step (c : Dev nD) (E : Set ℕ) (i : grid0.Coords)
    (arg2 : Memref sig .tc .vmem S1x1024x256 .f32) (harg2 : arg2.IsWhole) (arg3 : Memref sig .tc .vmem S1x1024x256 .f32) (harg3 : arg3.IsWhole)
    (arg4 : Memref sig .tc .vmem S1x256x256 .f32) (harg4 : arg4.IsWhole) (arg5 : Memref sig .tc .vmem S256x256 .f32) (harg5 : arg5.IsWhole)
    (hc0 : ¬condOpen i) (hc1 : ¬condLast i)
    (x0 x1 : Vec F S1x1024x256 .f32) (d4 : Vec F S1x256x256 .f32) (xs : Vec F S256x256 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare xs
        ∗ (iprop(owns (c : Thread nD τ) arg2 fullShare x0 ∗ owns (c : Thread nD τ) arg3 fullShare x1 ∗ owns (c : Thread nD τ) arg4 fullShare d4
            ∗ owns (c : Thread nD τ) arg5 fullShare (k0_pay2 x0 x1 xs)) -∗ K ⟨⟩))
      ⊢ wp frame (wpE (defs₀ (F := F)) Variants.none c none) E (cc0__kv_kernel i arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  refine (read_acc arg5 _ _ _).trans ?_
  exact pay2_loads arg2 harg2 arg3 harg3 x0 x1 (ld_acc arg5 harg5 xs)

set_option maxHeartbeats 1000000 in
/-- m = 3: the accumulator `xs` ends at `k0_pay2 x0 x1 xs`, and the output block at that, reshaped. -/
theorem sound_kv_last (c : Dev nD) (E : Set ℕ) (i : grid0.Coords)
    (arg2 : Memref sig .tc .vmem S1x1024x256 .f32) (harg2 : arg2.IsWhole) (arg3 : Memref sig .tc .vmem S1x1024x256 .f32) (harg3 : arg3.IsWhole)
    (arg4 : Memref sig .tc .vmem S1x256x256 .f32) (harg4 : arg4.IsWhole) (arg5 : Memref sig .tc .vmem S256x256 .f32) (harg5 : arg5.IsWhole)
    (hc0 : ¬condOpen i) (hc1 : condLast i)
    (x0 x1 : Vec F S1x1024x256 .f32) (xs : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E (cc0__kv_kernel i arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    refine (read_out arg4 _ _).trans ?_
    refine congrArg k0_pay3 ?_
    refine (View.readCov_unit_zero (S := S256x256) _ hz2 inb_S256x256_S256x256_0_0 _).trans ?_
    exact pay2_loads arg2 harg2 arg3 harg3 x0 x1 (ld_acc arg5 harg5 xs)
  iexists _; isplitr
  swap; · iexact H5
  ipureintro
  sl_unfold_words
  refine (read_acc arg5 _ _ _).trans ?_
  exact pay2_loads arg2 harg2 arg3 harg3 x0 x1 (ld_acc arg5 harg5 xs)

end Cert.Kernel.Hand

end
-- ==== Proof.Bits.KvFrame.lean ====
/-
  The first launch's body obligation: at every grid point the body, handed the invariant and the windows' staging buffers,
  gives them back as the proof data says.

  A point opens a batch (t % 4 = 0), closes one (t % 4 = 3) or does neither; the three runs of the body are the cases.
  The output window is idle except where a batch closes: there its buffer ends at the accumulator reshaped, elsewhere it
  is handed back as found. The accumulator rides in the invariant: taken at what the point before left (at anything at
  the very first point, and at a point that opens a batch its old contents are not used) and put back at this point's.
-/
import proofs.«113710_j39152921870872_1_alg».proof.Proof.Gen.Kernel.Launch
import proofs.«113710_j39152921870872_1_alg».proof.Proof.Gen.Kernel.Skeleton
import proofs.«113710_j39152921870872_1_alg».proof.Proof.Gen.Kernel.Points
import proofs.«113710_j39152921870872_1_alg».proof.Proof.Bits.KvData
import proofs.«113710_j39152921870872_1_alg».proof.Proof.Bits.KvBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input windows are never idle; the output window is idle exactly where no batch closes, and there it is not written back. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
theorem liveAt0_2 : ∀ t : Fin cfg0.N, condLast (grid0.coords t) → cfg0.idle 2 (grid0.coords t) = false := by decide +kernel

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 32 := lt_of_lt_of_eq t.isLt (show cfg0.N = 32 from N_0)
  by_cases h0 : t.val % 4 = 0
  · have hl : ¬condLast (grid0.coords t) := fun h => by have := (hcondLast t).mp h; omega
    rw [Dat.leavesExact_idle (dat0 V c) 2 t (idleAt0_2 t hl) (noFlush0_2 t hl)]
    rw [kvAcc_open V c t h0]
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩⟩
      iapply (sound_kv_open c Set.univ (grid0.coords t) _ _ _ _ _ _ _ _ ((hcondOpen t).mpr h0) hl (iblk0 V c 0 t) (iblk0 V c 1 t) _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hr⟩, Hg⟩, Ho, ⟨%d0, H0⟩, ⟨%d1, H1⟩, ⟨%d2, H2⟩⟩
      iapply (sound_kv_open c Set.univ (grid0.coords t) _ _ _ _ _ _ _ _ ((hcondOpen t).mpr h0) hl (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have ho : ¬condOpen (grid0.coords t) := fun h => h0 ((hcondOpen t).mp h)
    have hz : t.val ≠ 0 := fun e => h0 (by rw [e])
    rw [kvAcc_step V c t h0]
    rw [PhiS_castSucc V c t, PhiS_pos V c _ _ hz]
    by_cases h3 : t.val % 4 = 3
    · have hl : condLast (grid0.coords t) := (hcondLast t).mpr h3
      rw [show (dat0 V c).leavesExact 2 t = owns (c : Thread nD τ) (st0_2 t) fullShare ((dat0 V c).after 2 t) from by
        unfold Dat.leavesExact; rw [liveAt0_2 t hl], after0_2, kvAcc_step V c t h0]
      iintro ⟨⟨⟨HS, Hr⟩, Hg⟩, Ho, ⟨%d0, H0⟩, ⟨%d1, H1⟩, ⟨%d2, H2⟩⟩
      iapply (sound_kv_last c Set.univ (grid0.coords t) _ _ _ _ _ _ _ _ ho hl (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hl : ¬condLast (grid0.coords t) := fun h => h3 ((hcondLast t).mp h)
      rw [Dat.leavesExact_idle (dat0 V c) 2 t (idleAt0_2 t hl) (noFlush0_2 t hl)]
      iintro ⟨⟨⟨HS, Hr⟩, Hg⟩, Ho, ⟨%d0, H0⟩, ⟨%d1, H1⟩, ⟨%d2, H2⟩⟩
      iapply (sound_kv_step c Set.univ (grid0.coords t) _ _ _ _ _ _ _ _ ho hl (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hr⟩, Hg⟩
  isplitl [HS Hr]
  · isplitl [HS]
    · iexists _; iexact HS
    iexact Hr
  iexact Hg

end Cert.Kernel.Hand

end
-- ==== Proof.Bits.CtxFrame.lean ====
/-
  The second launch (the context product), one grid point at a time.

  At point (b, n) the body reads the query block [1, 1024, 256] and the whole [1, 256, 256] block of the first launch's
  result for batch b, and stores one [1, 1024, 256] block: a single store covering the whole output block, whose value is
  a pure function of the two blocks read. Nothing is carried from point to point. The facts below are stated for any
  contents `V` the arrays may hold when the launch begins.
-/
import proofs.«113710_j39152921870872_1_alg».proof.Proof.Gen.Kernel.Launch
import proofs.«113710_j39152921870872_1_alg».proof.Proof.Gen.Kernel.Skeleton
import proofs.«113710_j39152921870872_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So does the window of the first launch's result, which is fetched only when the batch changes. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of a [1, 1024, 256] buffer, and of a [1, 256, 256] one. -/
abbrev rQ : Rect S1x1024x256 := Rect.unit (s := S1x1024x256) ![0, 0, 0] S1x1024x256.size inb_S1x1024x256_S1x1024x256_0_0_0
abbrev rK : Rect S1x256x256 := Rect.unit (s := S1x256x256) ![0, 0, 0] S1x256x256.size inb_S1x256x256_S1x256x256_0_0_0

/-- What the body leaves in the output block, from the two blocks it read. -/
def ctxOut (x0 : Vec F S1x1024x256 .f32) (x1 : Vec F S1x256x256 .f32) : Vec F S1x1024x256 .f32 :=
  View.canon [⟨rQ, k1_pay1 (View.ld x0 rQ) (View.ld x1 rK)⟩]

theorem ctxCover (p0 : Vec F S1x1024x256 .f32) (y : S1x1024x256.Idx) :
    ∃ pc ∈ ([⟨rQ, p0⟩] : List (View.Piece (Elt F) S1x1024x256 .f32)), y ∈ pc.1.set :=
  View.cover_of_tiled [⟨rQ, p0⟩] S1x1024x256.size (by rfl) y

set_option maxHeartbeats 1000000 in
/-- The body on whole staging buffers: the two inputs are read and kept, the output ends at `ctxOut`. -/
theorem sound_ctx (c : Dev nD) (E : Set ℕ) (i : grid1.Coords) (arg2 : Memref sig .tc .vmem S1x1024x256 .f32) (harg2 : arg2.IsWhole)
    (arg3 : Memref sig .tc .vmem S1x256x256 .f32) (harg3 : arg3.IsWhole) (arg4 : Memref sig .tc .vmem S1x1024x256 .f32) (harg4 : arg4.IsWhole)
    (x0 : Vec F S1x1024x256 .f32) (x1 : Vec F S1x256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (ctxOut x0 x1)) -∗ K ⟨⟩))
      ⊢ wp frame (wpE (defs₀ (F := F)) Variants.none c none) E (cc1__ctx_kernel i arg2 harg2 arg3 harg3 arg4 harg4) K := by
  simp only [cc1__ctx_kernel_eq_skeleton]; unfold cc1__ctx_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (ctxCover _)

/-- The proof data of the second launch on core `c`: the arrays as found; after the body at point `t` each input's
    buffer at its block and the output's at `ctxOut` of the two; nothing of the kernel's own is kept between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => ctxOut (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = ctxOut (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_ctx c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/-
  The whole program: the two launches one after the other, from the launch memory to the return.

  Between launches every buffer that outlives a launch is held whole at known contents: the launch memory `W0`; after the
  first launch `W1`, which differs from `W0` only at the first launch's arrays (its inputs unchanged, its result at what
  the write-backs leave); after the second launch `W2`, likewise over `W1`. Each launch is entered with its proof data at
  the contents before it. The run ends with every such buffer at `W2`; the argument arrays are read back to the launch
  memory and the result array to the second launch's final contents.
-/
import proofs.«113710_j39152921870872_1_alg».proof.Proof.Gen.Kernel.Launch
import proofs.«113710_j39152921870872_1_alg».proof.Proof.Gen.Kernel.Skeleton
import proofs.«113710_j39152921870872_1_alg».proof.Proof.Gen.Kernel.Points
import proofs.«113710_j39152921870872_1_alg».proof.Proof.Bits.KvFrame
import proofs.«113710_j39152921870872_1_alg».proof.Proof.Bits.CtxFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- The same read at the TensorCore's references: what the first launch finds. -/
abbrev E0 : (c : Dev nD) → (b : Ref sig .tc) → Buf (Elt F) ((c : Thread nD τ).loc b) := fun c b => W0 m c b

/-- After the first launch: its arrays at what the pipeline leaves, every other buffer as before. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second launch finds. -/
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the second launch. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-! ## What the last contents hold at the program's arrays -/

/-- The query array: the second launch only reads it, the first does not touch it. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (E1 m) c).arrAt_in 0 rfl _).trans (A_eq1 (E1 m) c 0))
    _ = W0 m c (Proc.devRef .tc main_arg0) := W1_of_ne m c main_arg0 (by decide)
    _ = m ((c : Thread nD τ).loc main_arg0) := rfl
/-- The key and value arrays: the first launch only reads them, the second does not touch them. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((dat0 (E0 m) c).arrAt_in 0 rfl _).trans (A_eq0 (E0 m) c 0))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (E0 m) c).arrAt_in 1 rfl _).trans (A_eq0 (E0 m) c 1))
    _ = m ((c : Thread nD τ).loc main_arg2) := rfl
/-- The result array: what the second launch's write-backs leave. -/
theorem W2_main_v1 (c : Dev nD) : W2 m c (Proc.devRef .tc main_v1) = (dat1 (E1 m) c).arrAt 2 cfg1.N := W2_arr m c 2
/-- What the second launch finds in its two inputs: the query as launched, the first launch's result. -/
theorem E1_main_arg0 (c : Dev nD) : E1 m c main_arg0 = m ((c : Thread nD τ).loc main_arg0) := W1_of_ne m c main_arg0 (by decide)
theorem E1_main_v0 (c : Dev nD) : E1 m c main_v0 = (dat0 (E0 m) c).arrAt 2 cfg0.N := W1_arr m c 2

/-! ## The proof data family and the thread state -/

abbrev adm : (p : Fin 2) → (pcfgs (F := F) p).Adm := fun p => (cfgs p).toPCfg_adm
/-- Each launch's proof data at the contents it is entered with. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers between launches: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The launches as segments -/

set_option backward.isDefEq.respectTransparency.types false in
/-- The first launch: entered from every outliving buffer at `W0`, left at `W1`. The generator register and the idle
    scoped buffers enter its invariant and come back; the accumulator's last contents are forgotten at the exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every outliving buffer at `W1`, left at `W2`; it keeps nothing of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) :=
  main_segs adm (pdats m) () 𝒱₀ L lv (reg0 m) (reg1 m) c

set_option backward.isDefEq.respectTransparency.types false in
/-- From any memory with zero counters every weakly fair execution of the program terminates, nothing faulting, and every
    final state holds each buffer that outlives the launches at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The run, read at the program's arrays: the result array at the second launch's final contents, the three arguments as
    launched. -/
theorem run_main : θ_run defs (onTc (τ := τ) (main (F := F))) ⟨m, fun _ => 0, ρ⟩ (fun r => ∀ c : Dev nD,
      r.2.mem ((c.tc : Thread nD τ).loc main_v1) = (dat1 (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- The frame: the program runs to the end and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KvData.lean ====
/-
  The first launch (keys against values), the quantities its proof is stated over.

  The grid is (batch b, tile m) with m the fast axis: point t is batch t / 4, tile t % 4. At every point the body adds
  one tile's contribution to a [256, 256] accumulator it keeps in scratch memory: the accumulator is reset to zero first
  when m = 0, and copied to the output block when m = 3, the only points whose output block is written back.
  `kvAcc c n` is the accumulator after point n, by recursion on n; the output block after a point with m = 3 is that
  accumulator reshaped to [1, 256, 256].
-/
import proofs.«113710_j39152921870872_1_alg».proof.Proof.Gen.KernelIdeal.Launch
import proofs.«113710_j39152921870872_1_alg».proof.Proof.Gen.KernelIdeal.Skeleton
import proofs.«113710_j39152921870872_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The key window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- So does the value window's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The accumulator (the kernel's scratch buffer) after point `n`: this point's tile added to zero when the point opens a
    batch (n % 4 = 0), else to what the point before left. -/
def kvAcc (c : Dev nD) : (n : ℕ) → n < cfg0.N → Vec F S256x256 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (kvAcc c n (Nat.lt_of_succ_lt hn))

/-- At a point that opens a batch the accumulator starts from zero. -/
theorem kvAcc_open (c : Dev nD) (t : Fin cfg0.N) (h : t.val % 4 = 0) :
    kvAcc V c t.val t.isLt = k0_pay2 (iblk0 V c 0 t) (iblk0 V c 1 t) (k0_pay1 (F := F)) := by
  obtain ⟨n, hn⟩ := t
  cases n with
  | zero => rfl
  | succ n => exact if_pos h

/-- At any other point it continues from the point before. -/
theorem kvAcc_step (c : Dev nD) (t : Fin cfg0.N) (h : ¬t.val % 4 = 0) :
    kvAcc V c t.val t.isLt = k0_pay2 (iblk0 V c 0 t) (iblk0 V c 1 t) (kvAcc V c (t.val - 1) (Nat.lt_of_le_of_lt (Nat.sub_le _ _) t.isLt)) := by
  obtain ⟨n, hn⟩ := t
  cases n with
  | zero => exact absurd (Nat.zero_mod _) h
  | succ n => exact if_neg h

/-- The scratch buffer, as the body is handed it. -/
abbrev scM : Memref sig .tc .vmem S256x256 .f32 := Memref.whole cc0_scratch0

/-- The second launch's staging buffers, which are idle during the first launch: each whole at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region: the scratch buffer at some contents, the idle staging buffers, the generator register. -/
theorem PhiA0_eq (c : Dev nD) :
    (Pipeline.ΦA spec0 c : sProp 𝕄)
      = iprop(((∃ d, owns (c : Thread nD τ) scM fullShare d) ∗ restS c) ∗ (∃ r, prngReg c r)) := by
  unfold Pipeline.ΦA restS; rw [scopedRest0_eq]; simp only [scM, owns_whole]; try rfl

/-- The region's invariant before position `n`: before the first point what the launch hands it; afterwards the same with the
    scratch buffer at the accumulator the point before left. -/
def PhiS (c : Dev nD) : (n : ℕ) → n ≤ cfg0.N → sProp 𝕄
  | 0, _ => Pipeline.ΦA spec0 c
  | n + 1, hn => iprop((owns (c : Thread nD τ) scM fullShare (kvAcc V c n hn) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (kvAcc V c n hn) ∗ restS c) ∗ (∃ r, prngReg c r)) := rfl

theorem PhiS_pos (c : Dev nD) (n : ℕ) (h : n ≤ cfg0.N) (hz : n ≠ 0) :
    PhiS V c n h = iprop((owns (c : Thread nD τ) scM fullShare (kvAcc V c (n - 1) (by omega)) ∗ restS c) ∗ (∃ r, prngReg c r)) := by
  cases n with
  | zero => exact absurd rfl hz
  | succ n => rfl

/-- The proof data of the first launch on core `c`: the arrays as found; after the body at point `t` each input's buffer at
    its block and the output's at the accumulator reshaped (meaningful where the block is written back: t % 4 = 3). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (kvAcc V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (kvAcc V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Hand

end
-- ==== Proof.KvBody.lean ====
/-
  The body of the first launch on whole buffers, in its three cases.

  The body tests two conditions of the tile coordinate m: m = 0 ("opens a batch": the accumulator is first reset to zero)
  and m = 3 ("closes a batch": the accumulator is finally copied, reshaped, into the output block). Between them it always
  reads the key and value blocks and replaces the accumulator `a` by `k0_pay2 key value a`. A point with 0 < m < 3 only
  accumulates. In every case the two input blocks are left as read; the output block is untouched unless m = 3.
-/
import proofs.«113710_j39152921870872_1_alg».proof.Proof.Gen.KernelIdeal.Launch
import proofs.«113710_j39152921870872_1_alg».proof.Proof.Gen.KernelIdeal.Skeleton
import proofs.«113710_j39152921870872_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile coordinate is 0. -/
abbrev condOpen (i : grid0.Coords) : Prop := (Scalar.cmpi .ne (Scalar.extui (Scalar.cmpi .eq (BitVec.ofNat 32 (i 1).val) 0#32)) 0#32) = 1#1
/-- The tile coordinate is 3. -/
abbrev condLast (i : grid0.Coords) : Prop := k0_cond2 i = 1#1

theorem hcondOpen : ∀ t : Fin cfg0.N, condOpen (grid0.coords t) ↔ t.val % 4 = 0 :=
  (by decide +kernel : ∀ t : Fin grid0.N, condOpen (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)

/-- The two zero offsets of the accumulator, however spelt, are the constant zero. -/
theorem hz2 : (![0, 0] : Fin S256x256.rank → Nat) = fun _ => 0 := by funext a; fin_cases a <;> rfl
/-- The three zero offsets of an input block are the constant zero. -/
theorem hz3 : (![0, 0, 0] : Fin S1x1024x256.rank → Nat) = fun _ => 0 := by funext a; fin_cases a <;> rfl
/-- The three zero offsets of the output block are the constant zero. -/
theorem hz3o : (![0, 0, 0] : Fin S1x256x256.rank → Nat) = fun _ => 0 := by funext a; fin_cases a <;> rfl

variable (arg5 : Memref sig .tc .vmem S256x256 .f32) (harg5 : arg5.IsWhole) in
/-- A load of the whole accumulator buffer holding `xs` reads `xs`. -/
theorem ld_acc (xs : Vec F S256x256 .f32) :
    View.readAt (Elt F) arg5.view (Rect.unit (s := S256x256) ![0, 0] S256x256.size inb_S256x256_S256x256_0_0).toLoadRect (harg5.unread xs) = xs :=
  (View.ld_unit_zero (S := S256x256) hz2 inb_S256x256_S256x256_0_0 _).trans (harg5.read_unread xs)

variable (arg2 : Memref sig .tc .vmem S1x1024x256 .f32) (harg2 : arg2.IsWhole) (arg3 : Memref sig .tc .vmem S1x1024x256 .f32) (harg3 : arg3.IsWhole) in
/-- The accumulation's payload over what the two whole-block loads read of buffers holding `x0`, `x1` is the payload
    of those contents (a load through the whole-shape rectangle at zero offsets reads the contents), at any accumulator. -/
theorem pay2_loads (x0 x1 : Vec F S1x1024x256 .f32) {a a' : Vec F S256x256 .f32} (h : a = a') :
    k0_pay2
        (View.readAt (Elt F) arg2.view (Rect.unit (s := S1x1024x256) ![0, 0, 0] S1x1024x256.size inb_S1x1024x256_S1x1024x256_0_0_0).toLoadRect (harg2.unread x0))
        (View.readAt (Elt F) arg3.view (Rect.unit (s := S1x1024x256) ![0, 0, 0] S1x1024x256.size inb_S1x1024x256_S1x1024x256_0_0_0).toLoadRect (harg3.unread x1))
        a
      = k0_pay2 x0 x1 a' := by
  have e2 : View.readAt (Elt F) arg2.view (Rect.unit (s := S1x1024x256) ![0, 0, 0] S1x1024x256.size inb_S1x1024x256_S1x1024x256_0_0_0).toLoadRect (harg2.unread x0) = x0 :=
    (View.ld_unit_zero (S := S1x1024x256) hz3 inb_S1x1024x256_S1x1024x256_0_0_0 _).trans (harg2.read_unread x0)
  have e3 : View.readAt (Elt F) arg3.view (Rect.unit (s := S1x1024x256) ![0, 0, 0] S1x1024x256.size inb_S1x1024x256_S1x1024x256_0_0_0).toLoadRect (harg3.unread x1) = x1 :=
    (View.ld_unit_zero (S := S1x1024x256) hz3 inb_S1x1024x256_S1x1024x256_0_0_0 _).trans (harg3.read_unread x1)
  rw [e2, e3, h]

/-- The whole-accumulator rectangle holds every index: a store through it, last, covers the buffer. -/
theorem cover_acc (p0 : Vec F S256x256 .f32) (L : List (View.Piece (Elt F) S256x256 .f32)) (y : S256x256.Idx) :
    ∃ pc ∈ ((⟨Rect.unit (s := S256x256) ![0, 0] S256x256.size inb_S256x256_S256x256_0_0, p0⟩ : View.Piece (Elt F) S256x256 .f32) :: L), y ∈ pc.1.set :=
  ⟨_, List.mem_cons.mpr (Or.inl rfl), View.mem_set_unit_zero (S := S256x256) hz2 inb_S256x256_S256x256_0_0 y⟩

/-- The whole-output rectangle holds every index. -/
theorem cover_out (p0 : Vec F S1x256x256 .f32) (y : S1x256x256.Idx) :
    ∃ pc ∈ ([⟨Rect.unit (s := S1x256x256) ![0, 0, 0] S1x256x256.size inb_S1x256x256_S1x256x256_0_0_0, p0⟩] : List (View.Piece (Elt F) S1x256x256 .f32)), y ∈ pc.1.set :=
  ⟨_, List.mem_cons.mpr (Or.inl rfl), View.mem_set_unit_zero (S := S1x256x256) hz3o inb_S1x256x256_S1x256x256_0_0_0 y⟩

variable (arg5 : Memref sig .tc .vmem S256x256 .f32) in
/-- What the accumulator buffer reads after a store of `w` through its whole rectangle, last, over any earlier stores and
    any prior contents: `w`. -/
theorem read_acc (f : arg5.view.ty.Contents (Elt F)) (w : Vec F S256x256 .f32) (L : List (View.Piece (Elt F) S256x256 .f32)) :
    arg5.view.read (Elt F) (arg5.view.writes (Elt F) f
      ((⟨Rect.unit (s := S256x256) ![0, 0] S256x256.size inb_S256x256_S256x256_0_0, w⟩ : View.Piece (Elt F) S256x256 .f32) :: L)) = w :=
  (View.read_writes_eq_canon arg5.view f _ (cover_acc w L)).trans
    (View.canon_cons_unit_zero (S := S256x256) hz2 inb_S256x256_S256x256_0_0 w L)

variable (arg4 : Memref sig .tc .vmem S1x256x256 .f32) in
/-- What the output buffer reads after one store of `w` through its whole rectangle, over any prior contents: `w`. -/
theorem read_out (f : arg4.view.ty.Contents (Elt F)) (w : Vec F S1x256x256 .f32) :
    arg4.view.read (Elt F) (arg4.view.writes (Elt F) f
      [(⟨Rect.unit (s := S1x256x256) ![0, 0, 0] S1x256x256.size inb_S1x256x256_S1x256x256_0_0_0, w⟩ : View.Piece (Elt F) S1x256x256 .f32)]) = w :=
  (View.read_writes_eq_canon arg4.view f _ (cover_out w)).trans
    (View.canon_unit_zero (S := S1x256x256) hz3o inb_S1x256x256_S1x256x256_0_0_0 w)

set_option maxHeartbeats 1000000 in
/-- m = 0: the accumulator, whatever it held, ends at this tile's contribution added to zero. -/
theorem sound_kv_open (c : Dev nD) (E : Set ℕ) (i : grid0.Coords)
    (arg2 : Memref sig .tc .vmem S1x1024x256 .f32) (harg2 : arg2.IsWhole) (arg3 : Memref sig .tc .vmem S1x1024x256 .f32) (harg3 : arg3.IsWhole)
    (arg4 : Memref sig .tc .vmem S1x256x256 .f32) (harg4 : arg4.IsWhole) (arg5 : Memref sig .tc .vmem S256x256 .f32) (harg5 : arg5.IsWhole)
    (hc0 : condOpen i) (hc1 : ¬condLast i)
    (x0 x1 : Vec F S1x1024x256 .f32) (d4 : Vec F S1x256x256 .f32) (K : PUnit → sProp 𝕄) :
    iprop(owns (c : Thread nD τ) arg2 fullShare x0 ∗ owns (c : Thread nD τ) arg3 fullShare x1 ∗ owns (c : Thread nD τ) arg4 fullShare d4
        ∗ (∃ d, owns (c : Thread nD τ) arg5 fullShare d)
        ∗ (iprop(owns (c : Thread nD τ) arg2 fullShare x0 ∗ owns (c : Thread nD τ) arg3 fullShare x1 ∗ owns (c : Thread nD τ) arg4 fullShare d4
            ∗ owns (c : Thread nD τ) arg5 fullShare (k0_pay2 x0 x1 (k0_pay1 (F := F)))) -∗ K ⟨⟩))
      ⊢ wp frame (wpE (defs₀ (F := F)) Variants.none c none) E (cc0__kv_kernel i arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  refine (read_acc arg5 _ _ _).trans ?_
  exact pay2_loads arg2 harg2 arg3 harg3 x0 x1 (View.readCov_unit_zero (S := S256x256) _ hz2 inb_S256x256_S256x256_0_0 _)

set_option maxHeartbeats 1000000 in
/-- 0 < m < 3: the accumulator `xs` ends at `k0_pay2 x0 x1 xs`. -/
theorem sound_kv_step (c : Dev nD) (E : Set ℕ) (i : grid0.Coords)
    (arg2 : Memref sig .tc .vmem S1x1024x256 .f32) (harg2 : arg2.IsWhole) (arg3 : Memref sig .tc .vmem S1x1024x256 .f32) (harg3 : arg3.IsWhole)
    (arg4 : Memref sig .tc .vmem S1x256x256 .f32) (harg4 : arg4.IsWhole) (arg5 : Memref sig .tc .vmem S256x256 .f32) (harg5 : arg5.IsWhole)
    (hc0 : ¬condOpen i) (hc1 : ¬condLast i)
    (x0 x1 : Vec F S1x1024x256 .f32) (d4 : Vec F S1x256x256 .f32) (xs : Vec F S256x256 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare xs
        ∗ (iprop(owns (c : Thread nD τ) arg2 fullShare x0 ∗ owns (c : Thread nD τ) arg3 fullShare x1 ∗ owns (c : Thread nD τ) arg4 fullShare d4
            ∗ owns (c : Thread nD τ) arg5 fullShare (k0_pay2 x0 x1 xs)) -∗ K ⟨⟩))
      ⊢ wp frame (wpE (defs₀ (F := F)) Variants.none c none) E (cc0__kv_kernel i arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  refine (read_acc arg5 _ _ _).trans ?_
  exact pay2_loads arg2 harg2 arg3 harg3 x0 x1 (ld_acc arg5 harg5 xs)

set_option maxHeartbeats 1000000 in
/-- m = 3: the accumulator `xs` ends at `k0_pay2 x0 x1 xs`, and the output block at that, reshaped. -/
theorem sound_kv_last (c : Dev nD) (E : Set ℕ) (i : grid0.Coords)
    (arg2 : Memref sig .tc .vmem S1x1024x256 .f32) (harg2 : arg2.IsWhole) (arg3 : Memref sig .tc .vmem S1x1024x256 .f32) (harg3 : arg3.IsWhole)
    (arg4 : Memref sig .tc .vmem S1x256x256 .f32) (harg4 : arg4.IsWhole) (arg5 : Memref sig .tc .vmem S256x256 .f32) (harg5 : arg5.IsWhole)
    (hc0 : ¬condOpen i) (hc1 : condLast i)
    (x0 x1 : Vec F S1x1024x256 .f32) (xs : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E (cc0__kv_kernel i arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    refine (read_out arg4 _ _).trans ?_
    refine congrArg k0_pay3 ?_
    refine (View.readCov_unit_zero (S := S256x256) _ hz2 inb_S256x256_S256x256_0_0 _).trans ?_
    exact pay2_loads arg2 harg2 arg3 harg3 x0 x1 (ld_acc arg5 harg5 xs)
  iexists _; isplitr
  swap; · iexact H5
  ipureintro
  sl_unfold_words
  refine (read_acc arg5 _ _ _).trans ?_
  exact pay2_loads arg2 harg2 arg3 harg3 x0 x1 (ld_acc arg5 harg5 xs)

end Cert.KernelIdeal.Hand

end
-- ==== Proof.KvFrame.lean ====
/-
  The first launch's body obligation: at every grid point the body, handed the invariant and the windows' staging buffers,
  gives them back as the proof data says.

  A point opens a batch (t % 4 = 0), closes one (t % 4 = 3) or does neither; the three runs of the body are the cases.
  The output window is idle except where a batch closes: there its buffer ends at the accumulator reshaped, elsewhere it
  is handed back as found. The accumulator rides in the invariant: taken at what the point before left (at anything at
  the very first point, and at a point that opens a batch its old contents are not used) and put back at this point's.
-/
import proofs.«113710_j39152921870872_1_alg».proof.Proof.Gen.KernelIdeal.Launch
import proofs.«113710_j39152921870872_1_alg».proof.Proof.Gen.KernelIdeal.Skeleton
import proofs.«113710_j39152921870872_1_alg».proof.Proof.Gen.KernelIdeal.Points
import proofs.«113710_j39152921870872_1_alg».proof.Proof.KvData
import proofs.«113710_j39152921870872_1_alg».proof.Proof.KvBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input windows are never idle; the output window is idle exactly where no batch closes, and there it is not written back. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
theorem liveAt0_2 : ∀ t : Fin cfg0.N, condLast (grid0.coords t) → cfg0.idle 2 (grid0.coords t) = false := by decide +kernel

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 32 := lt_of_lt_of_eq t.isLt (show cfg0.N = 32 from N_0)
  by_cases h0 : t.val % 4 = 0
  · have hl : ¬condLast (grid0.coords t) := fun h => by have := (hcondLast t).mp h; omega
    rw [Dat.leavesExact_idle (dat0 V c) 2 t (idleAt0_2 t hl) (noFlush0_2 t hl)]
    rw [kvAcc_open V c t h0]
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩⟩
      iapply (sound_kv_open c Set.univ (grid0.coords t) _ _ _ _ _ _ _ _ ((hcondOpen t).mpr h0) hl (iblk0 V c 0 t) (iblk0 V c 1 t) _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hr⟩, Hg⟩, Ho, ⟨%d0, H0⟩, ⟨%d1, H1⟩, ⟨%d2, H2⟩⟩
      iapply (sound_kv_open c Set.univ (grid0.coords t) _ _ _ _ _ _ _ _ ((hcondOpen t).mpr h0) hl (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have ho : ¬condOpen (grid0.coords t) := fun h => h0 ((hcondOpen t).mp h)
    have hz : t.val ≠ 0 := fun e => h0 (by rw [e])
    rw [kvAcc_step V c t h0]
    rw [PhiS_castSucc V c t, PhiS_pos V c _ _ hz]
    by_cases h3 : t.val % 4 = 3
    · have hl : condLast (grid0.coords t) := (hcondLast t).mpr h3
      rw [show (dat0 V c).leavesExact 2 t = owns (c : Thread nD τ) (st0_2 t) fullShare ((dat0 V c).after 2 t) from by
        unfold Dat.leavesExact; rw [liveAt0_2 t hl], after0_2, kvAcc_step V c t h0]
      iintro ⟨⟨⟨HS, Hr⟩, Hg⟩, Ho, ⟨%d0, H0⟩, ⟨%d1, H1⟩, ⟨%d2, H2⟩⟩
      iapply (sound_kv_last c Set.univ (grid0.coords t) _ _ _ _ _ _ _ _ ho hl (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hl : ¬condLast (grid0.coords t) := fun h => h3 ((hcondLast t).mp h)
      rw [Dat.leavesExact_idle (dat0 V c) 2 t (idleAt0_2 t hl) (noFlush0_2 t hl)]
      iintro ⟨⟨⟨HS, Hr⟩, Hg⟩, Ho, ⟨%d0, H0⟩, ⟨%d1, H1⟩, ⟨%d2, H2⟩⟩
      iapply (sound_kv_step c Set.univ (grid0.coords t) _ _ _ _ _ _ _ _ ho hl (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hr⟩, Hg⟩
  isplitl [HS Hr]
  · isplitl [HS]
    · iexists _; iexact HS
    iexact Hr
  iexact Hg

end Cert.KernelIdeal.Hand

end
-- ==== Proof.CtxFrame.lean ====
/-
  The second launch (the context product), one grid point at a time.

  At point (b, n) the body reads the query block [1, 1024, 256] and the whole [1, 256, 256] block of the first launch's
  result for batch b, and stores one [1, 1024, 256] block: a single store covering the whole output block, whose value is
  a pure function of the two blocks read. Nothing is carried from point to point. The facts below are stated for any
  contents `V` the arrays may hold when the launch begins.
-/
import proofs.«113710_j39152921870872_1_alg».proof.Proof.Gen.KernelIdeal.Launch
import proofs.«113710_j39152921870872_1_alg».proof.Proof.Gen.KernelIdeal.Skeleton
import proofs.«113710_j39152921870872_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So does the window of the first launch's result, which is fetched only when the batch changes. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of a [1, 1024, 256] buffer, and of a [1, 256, 256] one. -/
abbrev rQ : Rect S1x1024x256 := Rect.unit (s := S1x1024x256) ![0, 0, 0] S1x1024x256.size inb_S1x1024x256_S1x1024x256_0_0_0
abbrev rK : Rect S1x256x256 := Rect.unit (s := S1x256x256) ![0, 0, 0] S1x256x256.size inb_S1x256x256_S1x256x256_0_0_0

/-- What the body leaves in the output block, from the two blocks it read. -/
def ctxOut (x0 : Vec F S1x1024x256 .f32) (x1 : Vec F S1x256x256 .f32) : Vec F S1x1024x256 .f32 :=
  View.canon [⟨rQ, k1_pay1 (View.ld x0 rQ) (View.ld x1 rK)⟩]

theorem ctxCover (p0 : Vec F S1x1024x256 .f32) (y : S1x1024x256.Idx) :
    ∃ pc ∈ ([⟨rQ, p0⟩] : List (View.Piece (Elt F) S1x1024x256 .f32)), y ∈ pc.1.set :=
  View.cover_of_tiled [⟨rQ, p0⟩] S1x1024x256.size (by rfl) y

set_option maxHeartbeats 1000000 in
/-- The body on whole staging buffers: the two inputs are read and kept, the output ends at `ctxOut`. -/
theorem sound_ctx (c : Dev nD) (E : Set ℕ) (i : grid1.Coords) (arg2 : Memref sig .tc .vmem S1x1024x256 .f32) (harg2 : arg2.IsWhole)
    (arg3 : Memref sig .tc .vmem S1x256x256 .f32) (harg3 : arg3.IsWhole) (arg4 : Memref sig .tc .vmem S1x1024x256 .f32) (harg4 : arg4.IsWhole)
    (x0 : Vec F S1x1024x256 .f32) (x1 : Vec F S1x256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (ctxOut x0 x1)) -∗ K ⟨⟩))
      ⊢ wp frame (wpE (defs₀ (F := F)) Variants.none c none) E (cc1__ctx_kernel i arg2 harg2 arg3 harg3 arg4 harg4) K := by
  simp only [cc1__ctx_kernel_eq_skeleton]; unfold cc1__ctx_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (ctxCover _)

/-- The proof data of the second launch on core `c`: the arrays as found; after the body at point `t` each input's
    buffer at its block and the output's at `ctxOut` of the two; nothing of the kernel's own is kept between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => ctxOut (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = ctxOut (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_ctx c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program: the two launches one after the other, from the launch memory to the return.

  Between launches every buffer that outlives a launch is held whole at known contents: the launch memory `W0`; after the
  first launch `W1`, which differs from `W0` only at the first launch's arrays (its inputs unchanged, its result at what
  the write-backs leave); after the second launch `W2`, likewise over `W1`. Each launch is entered with its proof data at
  the contents before it. The run ends with every such buffer at `W2`; the argument arrays are read back to the launch
  memory and the result array to the second launch's final contents.
-/
import proofs.«113710_j39152921870872_1_alg».proof.Proof.Gen.KernelIdeal.Launch
import proofs.«113710_j39152921870872_1_alg».proof.Proof.Gen.KernelIdeal.Skeleton
import proofs.«113710_j39152921870872_1_alg».proof.Proof.Gen.KernelIdeal.Points
import proofs.«113710_j39152921870872_1_alg».proof.Proof.KvFrame
import proofs.«113710_j39152921870872_1_alg».proof.Proof.CtxFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- The same read at the TensorCore's references: what the first launch finds. -/
abbrev E0 : (c : Dev nD) → (b : Ref sig .tc) → Buf (Elt F) ((c : Thread nD τ).loc b) := fun c b => W0 m c b

/-- After the first launch: its arrays at what the pipeline leaves, every other buffer as before. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second launch finds. -/
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the second launch. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-! ## What the last contents hold at the program's arrays -/

/-- The query array: the second launch only reads it, the first does not touch it. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (E1 m) c).arrAt_in 0 rfl _).trans (A_eq1 (E1 m) c 0))
    _ = W0 m c (Proc.devRef .tc main_arg0) := W1_of_ne m c main_arg0 (by decide)
    _ = m ((c : Thread nD τ).loc main_arg0) := rfl
/-- The key and value arrays: the first launch only reads them, the second does not touch them. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((dat0 (E0 m) c).arrAt_in 0 rfl _).trans (A_eq0 (E0 m) c 0))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (E0 m) c).arrAt_in 1 rfl _).trans (A_eq0 (E0 m) c 1))
    _ = m ((c : Thread nD τ).loc main_arg2) := rfl
/-- The result array: what the second launch's write-backs leave. -/
theorem W2_main_v1 (c : Dev nD) : W2 m c (Proc.devRef .tc main_v1) = (dat1 (E1 m) c).arrAt 2 cfg1.N := W2_arr m c 2
/-- What the second launch finds in its two inputs: the query as launched, the first launch's result. -/
theorem E1_main_arg0 (c : Dev nD) : E1 m c main_arg0 = m ((c : Thread nD τ).loc main_arg0) := W1_of_ne m c main_arg0 (by decide)
theorem E1_main_v0 (c : Dev nD) : E1 m c main_v0 = (dat0 (E0 m) c).arrAt 2 cfg0.N := W1_arr m c 2

/-! ## The proof data family and the thread state -/

abbrev adm : (p : Fin 2) → (pcfgs (F := F) p).Adm := fun p => (cfgs p).toPCfg_adm
/-- Each launch's proof data at the contents it is entered with. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers between launches: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The launches as segments -/

set_option backward.isDefEq.respectTransparency.types false in
/-- The first launch: entered from every outliving buffer at `W0`, left at `W1`. The generator register and the idle
    scoped buffers enter its invariant and come back; the accumulator's last contents are forgotten at the exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every outliving buffer at `W1`, left at `W2`; it keeps nothing of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) :=
  main_segs adm (pdats m) () 𝒱₀ L lv (reg0 m) (reg1 m) c

set_option backward.isDefEq.respectTransparency.types false in
/-- From any memory with zero counters every weakly fair execution of the program terminates, nothing faulting, and every
    final state holds each buffer that outlives the launches at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The run, read at the program's arrays: the result array at the second launch's final contents, the three arguments as
    launched. -/
theorem run_main : θ_run defs (onTc (τ := τ) (main (F := F))) ⟨m, fun _ => 0, ρ⟩ (fun r => ∀ c : Dev nD,
      r.2.mem ((c.tc : Thread nD τ).loc main_v1) = (dat1 (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- The frame: the program runs to the end and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.LibMatmulTAt.lean ====
/-
  A matrix product that contracts the first axis of both operands, accumulated into zero, read at one entry over
  the extended reals.

  For dimension numbers that contract the left operand's first axis with the right operand's first, with no batch
  axis — so that the left operand is read at (k, row) and the right at (k, column) — the entry (p, q) of the product
  of a [K × A] and a [K × B] matrix is `∑ₖ l[k, p] · r[k, q]`: the transpose of the left operand times the right.
  The four facts about where the dimension numbers read their operands are hypotheses, so that the lemma serves any
  printed record of this kind.
-/
import Idealize.ShloMosaic.PureOps.Ideal.Laws
import Idealize.ShloMosaic.Lib.ValueIdx

noncomputable section

namespace Idealize.ShloMosaic.MatmulTAt

open Idealize.ShloMosaic Idealize.ShloMosaic.ValueIdx

/-- Entry (p, q) of `lᵀ · r` accumulated into zero is the sum over the contracted axis of `l[k, p] · r[k, q]`, for
    dimension numbers `D` whose one contracted axis has extent `K` (`hr`, `hs`) and which read the left operand at
    (k, row) (`hl0`, `hl1`) and the right at (k, column) (`hr0`, `hr1`). -/
theorem matmulT_zero_at {A K B : Nat} {φ₁ φ₂ : FTy}
    (D : DotDims (⟨2, ![K, A]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (q ⟨0, by omega⟩).val)
    (hl1 : ∀ (i : (⟨2, ![A, B]⟩ : Shape).Idx) (q : D.contr.Idx), (D.lhsIdx i q 1).val = (i 0).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![K, A]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 k p) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p := funext fun a => Fin.ext (by
    match a with
    | ⟨0, _⟩ => exact (hl0 _ _).trans hk
    | ⟨1, _⟩ => exact hl1 _ _)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulTAt

end
-- ==== Proof.Spec.lean ====
/-
  What the two programs compute, over the extended reals, entry by entry.

  Each row of `query` and `key` (256 entries) is divided by its length, the length floored at a small positive
  constant: `unit row c = row c / max (sqrt (0 + ∑ c', row c' * row c')) ε`.
  `kv b c d = ∑ j < 4096, unit (key b j) c * value b j d` and
  `ctx b n d = ∑ c < 256, unit (query b n) c * kv b c d`; the result is `ctx / 4096`.
  Arrays are read through their three coordinates (`at3`).
-/
import Idealize.ShloMosaic.PureOps.Ideal.Laws
import Idealize.ShloMosaic.Lib.ValueIdx

noncomputable section

namespace Cert.Spec

open Idealize.ShloMosaic Idealize.ShloMosaic.ValueIdx

/-- The floor of a row's length: the single-precision number nearest 1e-12. -/
abbrev eps : EReal := Ideal.ofBits .f32 0x2B8CBCCC#32

/-- A rank-3 array read at three coordinates. -/
abbrev at3 {n0 n1 n2 : Nat} (x : (⟨3, ![n0, n1, n2]⟩ : Shape).Idx → EReal) (a : Fin n0) (b : Fin n1) (c : Fin n2) : EReal :=
  x (ix3 a b c)

/-- A row's length, floored at `eps`. -/
def rowNorm (row : Fin 256 → EReal) : EReal :=
  max (Ideal.sqrt (Ideal.ofBits .f32 0x00000000#32 + ∑ c : Fin 256, row c * row c)) eps

/-- The row scaled to unit length. -/
def unit (row : Fin 256 → EReal) (c : Fin 256) : EReal := Ideal.div (row c) (rowNorm row)

/-- `kv b c d`: the normalised keys against the values, summed over the 4096 positions. -/
def kv (key value : Fin 8 → Fin 4096 → Fin 256 → EReal) (b : Fin 8) (c d : Fin 256) : EReal :=
  ∑ j : Fin 4096, unit (key b j) c * value b j d

/-- `ctx b n d`: the normalised query row against `kv b`. -/
def ctx (query : Fin 8 → Fin 4096 → Fin 256 → EReal) (w : Fin 8 → Fin 256 → Fin 256 → EReal)
    (b : Fin 8) (n : Fin 4096) (d : Fin 256) : EReal :=
  ∑ c : Fin 256, unit (query b n) c * w b c d

/-- 4096 and its reciprocal are both exact in single precision. -/
theorem ofBits_4096 : Ideal.ofBits .f32 0x45800000#32 = ((4096 : ℝ) : EReal) := by
  simp [Ideal.ofBits, Ideal.ieee, -EReal.coe_mul]; norm_num

theorem ofBits_inv4096 : Ideal.ofBits .f32 0x39800000#32 = ((1 / 4096 : ℝ) : EReal) := by
  simp [Ideal.ofBits, Ideal.ieee, -EReal.coe_mul]; norm_num

/-- Dividing by 4096 is multiplying by 1/4096, on every extended real. -/
theorem div_4096 (x : EReal) :
    Ideal.div x (Ideal.ofBits .f32 0x45800000#32) = x * Ideal.ofBits .f32 0x39800000#32 := by
  rw [ofBits_4096, ofBits_inv4096, Ideal.div_coe (by norm_num : (4096 : ℝ) ≠ 0)]

end Cert.Spec

end
-- ==== Proof.KvPayload.lean ====
/-
  The first launch's three pure payloads read at an entry, over the extended reals.

  The first payload is a block of zeros. The second divides each of the 1024 rows of the key block by its length
  (floored at a small positive constant), multiplies the transposed result with the value block — the sum over the
  1024 rows of (normalised key)[r, p] · value[r, q] — and adds the old accumulator. The third only adds a leading
  unit axis.
-/
import proofs.«113710_j39152921870872_1_alg».proof.Proof.Gen.KernelIdeal.Skeleton
import proofs.«113710_j39152921870872_1_alg».proof.Proof.LibMatmulTAt
import proofs.«113710_j39152921870872_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandValue
open Cert.KernelIdeal Cert.KernelIdeal.Gen
open Idealize.ShloMosaic Idealize.ShloMosaic.TcCoe Idealize.SL.Sem Idealize.ShloMosaic.ValueIdx
open Idealize.ShloMosaic.Pipeline (Dat)

/-! ## Index maps of the non-pointwise operations -/

/-- A vector of length `a` cast to an `[a, 1]` column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The product's dimension numbers read the left operand's first axis at the contracted index … -/
theorem lhs_dot_0 (i : S256x256.Idx) (q : dot_S1024x256_S1024x256_S256x256_0_0_1_1_n_n.contr.Idx) :
    (dot_S1024x256_S1024x256_S256x256_0_0_1_1_n_n.lhsIdx i q 0).val = (q ⟨0, by decide⟩).val :=
  dot_S1024x256_S1024x256_S256x256_0_0_1_1_n_n.lhsIdx_val_of_single rfl i q
/-- … and its second axis at the result's row; -/
theorem lhs_dot_1 (i : S256x256.Idx) (q : dot_S1024x256_S1024x256_S256x256_0_0_1_1_n_n.contr.Idx) :
    (dot_S1024x256_S1024x256_S256x256_0_0_1_1_n_n.lhsIdx i q 1).val = (i 0).val := by
  unfold DotDims.lhsIdx
  rw [dif_neg (show ¬(1 : Fin S1024x256.rank) ∈ dot_S1024x256_S1024x256_S256x256_0_0_1_1_n_n.lhsBatch by decide), dif_pos (show (1 : Fin S1024x256.rank) ∈ dot_S1024x256_S1024x256_S256x256_0_0_1_1_n_n.lhsNonContracting by decide)]
  rfl
/-- the right operand's first axis at the contracted index … -/
theorem rhs_dot_0 (i : S256x256.Idx) (q : dot_S1024x256_S1024x256_S256x256_0_0_1_1_n_n.contr.Idx) :
    (dot_S1024x256_S1024x256_S256x256_0_0_1_1_n_n.rhsIdx i q 0).val = (q ⟨0, by decide⟩).val :=
  dot_S1024x256_S1024x256_S256x256_0_0_1_1_n_n.rhsIdx_val_of_single rfl i q
/-- … and its second axis at the result's column. -/
theorem rhs_dot_1 (i : S256x256.Idx) (q : dot_S1024x256_S1024x256_S256x256_0_0_1_1_n_n.contr.Idx) :
    (dot_S1024x256_S1024x256_S256x256_0_0_1_1_n_n.rhsIdx i q 1).val = (i 1).val := by
  unfold DotDims.rhsIdx
  rw [dif_neg (show ¬(1 : Fin S1024x256.rank) ∈ dot_S1024x256_S1024x256_S256x256_0_0_1_1_n_n.rhsBatch by decide), dif_pos (show (1 : Fin S1024x256.rank) ∈ dot_S1024x256_S1024x256_S256x256_0_0_1_1_n_n.rhsNonContracting by decide)]
  rfl

/-! ## The first and third payloads -/

/-- The first payload is the zero block. -/
theorem zero_at (p q : Fin 256) : k0_pay1 (F := Ideal) (ix2 p q) = 0 := by
  unfold k0_pay1
  rw [shapeCast_self]
  exact Ideal.ofBits_zero_f32

/-- The third payload adds a leading unit axis and changes no entry. -/
theorem out_at (a : Vec Ideal S256x256 .f32) (p q : Fin 256) : k0_pay3 (F := Ideal) a (ix3 0 p q) = a (ix2 p q) := by
  unfold k0_pay3
  exact shapeCast_ab_1ab_apply _ _ 0 p q

/-! ## The second payload: a row's length, the normalised row, the product -/

/-- A `[1, 1024, 256]` block with its unit axis dropped reads, at `(r, c)`, the block at `(0, r, c)`. -/
theorem rows_at (x : Vec Ideal S1x1024x256 .f32) (r : Fin 1024) (c : Fin 256) :
    shapeCast S1024x256 x shapeCasts_S1x1024x256_S1024x256 (ix2 r c) = x (ix3 0 r c) :=
  shapeCast_1ab_ab_apply _ _ r c

/-- The lane reduction of the squares, at row `r`, is the sum of the row's squares. -/
theorem sumsq_at (v : FVec Ideal S1024x256 .f32) (hφ : FKind.Formats .f32)
    (hacc : (0x00000000#32 : BitVec 32) = FKind.add.neutral .f32 hφ) (r : Fin 1024) :
    multiReduction .add [1] S1024 (mulf v v) 0x00000000#32 reduces_S1024x256_S1024 hφ hacc (ix1 r)
      = ∑ c : Fin 256, v (ix2 r c) * v (ix2 r c) := by
  refine (Ideal.multiReduction_add_single (mulf v v) _ reduces_S1024x256_S1024 hφ hacc (ix1 r)).trans ?_
  refine Finset.sum_congr rfl fun (c : Fin 256) _ => ?_
  have e : reduces_S1024x256_S1024.lift (ix1 r) c = ix2 r c := funext fun a => Fin.ext (by
    match a with
    | ⟨0, _⟩ => rfl
    | ⟨1, _⟩ => rfl)
  exact congrArg (fun i => v i * v i) e

/-- The divisor of row `r`, the same in every column: the square root of the row's sum of squares, floored at the
    small constant. -/
theorem floor_at (v : FVec Ideal S1024x256 .f32) (hφ : FKind.Formats .f32)
    (hacc : (0x00000000#32 : BitVec 32) = FKind.add.neutral .f32 hφ) (r : Fin 1024) (c : Fin 256) :
    broadcastTo S1024x256
        (maximumf
          (sqrt (shapeCast S1024x1 (multiReduction .add [1] S1024 (mulf v v) 0x00000000#32 reduces_S1024x256_S1024 hφ hacc)
            shapeCasts_S1024_S1024x1))
          (broadcast S1024x1 (FloatOps.ofBits (F := Ideal) .f32 0x2B8CBCCC#32)))
        broadcasts_S1024x1_S1024x256 (ix2 r c)
      = max (Ideal.sqrt (∑ c' : Fin 256, v (ix2 r c') * v (ix2 r c'))) (Ideal.ofBits .f32 0x2B8CBCCC#32) := by
  refine (broadcastTo_apply _ broadcasts_S1024x1_S1024x256 (ix2 r c) (ix2 r (0 : Fin 1)) ?_).trans ?_
  · intro a
    match a with
    | ⟨0, _⟩ => rfl
    | ⟨1, _⟩ => rfl
  · rw [maximumf_apply, broadcast_apply]
    refine congrArg₂ max ?_ rfl
    show Ideal.sqrt (shapeCast S1024x1 _ shapeCasts_S1024_S1024x1 (ix2 r (0 : Fin 1))) = _
    refine congrArg Ideal.sqrt ?_
    exact (shapeCast_a_a1_apply _ _ r 0).trans (sumsq_at v hφ hacc r)

/-- The normalised key block at `(r, p)` is entry `p` of row `r` scaled to unit length. -/
theorem keyn_at (x : Vec Ideal S1x1024x256 .f32) (hφ : FKind.Formats .f32)
    (hacc : (0x00000000#32 : BitVec 32) = FKind.add.neutral .f32 hφ) (r : Fin 1024) (p : Fin 256) :
    truncf .bf16
        (divf (shapeCast S1024x256 x shapeCasts_S1x1024x256_S1024x256)
          (broadcastTo S1024x256
            (maximumf
              (sqrt (shapeCast S1024x1
                (multiReduction .add [1] S1024
                  (mulf (shapeCast S1024x256 x shapeCasts_S1x1024x256_S1024x256)
                    (shapeCast S1024x256 x shapeCasts_S1x1024x256_S1024x256))
                  0x00000000#32 reduces_S1024x256_S1024 hφ hacc)
                shapeCasts_S1024_S1024x1))
              (broadcast S1024x1 (FloatOps.ofBits (F := Ideal) .f32 0x2B8CBCCC#32)))
            broadcasts_S1024x1_S1024x256))
        bitsLt_bf16_f32 (ix2 r p)
      = Cert.Spec.unit (fun c' => x (ix3 0 r c')) p := by
  rw [truncf_apply, divf_apply, floor_at, rows_at]
  have hs : (∑ c' : Fin 256, shapeCast S1024x256 x shapeCasts_S1x1024x256_S1024x256 (ix2 r c')
        * shapeCast S1024x256 x shapeCasts_S1x1024x256_S1024x256 (ix2 r c'))
      = ∑ c' : Fin 256, x (ix3 0 r c') * x (ix3 0 r c') :=
    Finset.sum_congr rfl fun c' _ => congrArg₂ (fun a b : EReal => a * b) (rows_at x r c') (rows_at x r c')
  rw [hs]
  unfold Cert.Spec.unit Cert.Spec.rowNorm
  rw [Ideal.ofBits_zero_f32, zero_add]

/-- The second payload at `(p, q)`: the old accumulator plus the sum over the 1024 rows of the normalised key entry
    `(r, p)` times the value entry `(r, q)`. -/
theorem tile_at (x0 x1 : Vec Ideal S1x1024x256 .f32) (acc : Vec Ideal S256x256 .f32) (p q : Fin 256) :
    k0_pay2 (F := Ideal) x0 x1 acc (ix2 p q)
      = acc (ix2 p q) + ∑ r : Fin 1024, Cert.Spec.unit (fun c' => x0 (ix3 0 r c')) p * x1 (ix3 0 r q) := by
  unfold k0_pay2
  rw [shapeCast_self, addf_apply]
  refine congrArg (fun t => acc (ix2 p q) + t) ?_
  refine (Idealize.ShloMosaic.MatmulTAt.matmulT_zero_at dot_S1024x256_S1024x256_S256x256_0_0_1_1_n_n rfl rfl
    lhs_dot_0 lhs_dot_1 rhs_dot_0 rhs_dot_1 none _ _ p q).trans ?_
  refine Finset.sum_congr rfl fun r _ => ?_
  exact congrArg₂ (fun a b : EReal => a * b) (keyn_at x0 (.inl rfl) rfl r p)
    ((truncf_apply (ψ := .bf16) (shapeCast S1024x256 x1 shapeCasts_S1x1024x256_S1024x256) bitsLt_bf16_f32 (ix2 r q)).trans
      (rows_at x1 r q))

end Cert.KernelIdeal.HandValue
end
-- ==== Proof.KvValue.lean ====
/-
  What the first launch leaves in its result array, entry by entry, over the extended reals.

  Point t of the grid is batch t / 4, tile t % 4. The key and value blocks at point t are rows 1024 (t % 4) … 1024 (t % 4) + 1023
  of batch t / 4. The accumulator after point t is therefore the sum, over the rows j < 1024 (t % 4 + 1) of that batch, of
  (the unit-length key row j) at c times (the value row j) at d; at the last tile of a batch that is the whole sum over
  the 4096 rows, and it is what the point writes to block t / 4 of the result. The eight written blocks tile the result.
-/
import proofs.«113710_j39152921870872_1_alg».proof.Proof.KvData
import proofs.«113710_j39152921870872_1_alg».proof.Proof.KvPayload
import proofs.«113710_j39152921870872_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Intervals

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

namespace Kv

/-- The keys and the values, read through their three coordinates. -/
abbrev keyA (c : Dev nD) : Fin 8 → Fin 4096 → Fin 256 → EReal := Cert.Spec.at3 (V c main_arg1)
abbrev valA (c : Dev nD) : Fin 8 → Fin 4096 → Fin 256 → EReal := Cert.Spec.at3 (V c main_arg2)

/-- The key block and the value block at point t, as [1, 1024, 256] arrays. -/
abbrev kblk (c : Dev nD) (t : Fin cfg0.N) : Vec Ideal S1x1024x256 .f32 := iblk0 V c 0 t
abbrev vblk (c : Dev nD) (t : Fin cfg0.N) : Vec Ideal S1x1024x256 .f32 := iblk0 V c 1 t

/-- The grid has 32 points. -/
theorem N32 : cfg0.N = 32 := N_0

/-- The block indices of the three windows at point t: batch t / 4, tile t % 4 for the inputs; batch t / 4 for the result. -/
theorem idx_facts : ∀ t : Fin cfg0.N,
    win0_0.index t 0 = t.val / 4 ∧ win0_0.index t 1 = t.val % 4 ∧ win0_0.index t 2 = 0
    ∧ win0_1.index t 0 = t.val / 4 ∧ win0_1.index t 1 = t.val % 4 ∧ win0_1.index t 2 = 0
    ∧ win0_2.index t 0 = t.val / 4 ∧ win0_2.index t 1 = 0 ∧ win0_2.index t 2 = 0 :=
  (by decide +kernel : ∀ t : Fin grid0.N,
    win0_0.index t 0 = t.val / 4 ∧ win0_0.index t 1 = t.val % 4 ∧ win0_0.index t 2 = 0
    ∧ win0_1.index t 0 = t.val / 4 ∧ win0_1.index t 1 = t.val % 4 ∧ win0_1.index t 2 = 0
    ∧ win0_2.index t 0 = t.val / 4 ∧ win0_2.index t 1 = 0 ∧ win0_2.index t 2 = 0)

theorem batch_lt (t : Fin cfg0.N) : t.val / 4 < 8 := by
  have h : t.val < 32 := lt_of_lt_of_eq t.isLt N32
  omega

theorem row_lt (t : Fin cfg0.N) (r : Fin 1024) : 1024 * (t.val % 4) + r.val < 4096 := by
  have h := r.isLt; omega

/-- The key block at point t, row r, is row 1024 (t % 4) + r of batch t / 4. -/
theorem kblk_at (c : Dev nD) (t : Fin cfg0.N) (r : Fin 1024) (q : Fin 256) :
    kblk V c t (ix3 0 r q) = keyA V c ⟨t.val / 4, batch_lt t⟩ ⟨1024 * (t.val % 4) + r.val, row_lt t r⟩ q := by
  obtain ⟨e0, e1, e2, -⟩ := idx_facts t
  show iblk0 V c 0 t (ix3 0 r q) = V c main_arg1 _
  unfold iblk0
  rw [View.read_apply]
  show V c main_arg1 _ = V c main_arg1 _
  congr 1
  funext a
  apply Fin.ext
  match a with
  | ⟨0, _⟩ => show win0_0.index t 0 * 1 + 1 * 0 = t.val / 4; omega
  | ⟨1, _⟩ => show win0_0.index t 1 * 1024 + 1 * r.val = 1024 * (t.val % 4) + r.val; omega
  | ⟨2, _⟩ => show win0_0.index t 2 * 256 + 1 * q.val = q.val; omega

/-- The same for the value block. -/
theorem vblk_at (c : Dev nD) (t : Fin cfg0.N) (r : Fin 1024) (q : Fin 256) :
    vblk V c t (ix3 0 r q) = valA V c ⟨t.val / 4, batch_lt t⟩ ⟨1024 * (t.val % 4) + r.val, row_lt t r⟩ q := by
  obtain ⟨-, -, -, e0, e1, e2, -⟩ := idx_facts t
  show iblk0 V c 1 t (ix3 0 r q) = V c main_arg2 _
  unfold iblk0
  rw [View.read_apply]
  show V c main_arg2 _ = V c main_arg2 _
  congr 1
  funext a
  apply Fin.ext
  match a with
  | ⟨0, _⟩ => show win0_1.index t 0 * 1 + 1 * 0 = t.val / 4; omega
  | ⟨1, _⟩ => show win0_1.index t 1 * 1024 + 1 * r.val = 1024 * (t.val % 4) + r.val; omega
  | ⟨2, _⟩ => show win0_1.index t 2 * 256 + 1 * q.val = q.val; omega

/-- Row j of batch b contributes (unit key row)(p) · (value row)(q); outside the array the contribution is 0, so that the
    partial sums can be taken over plain ranges of naturals. -/
def term (c : Dev nD) (b j : ℕ) (p q : Fin 256) : EReal :=
  if h : b < 8 ∧ j < 4096 then Cert.Spec.unit (keyA V c ⟨b, h.1⟩ ⟨j, h.2⟩) p * valA V c ⟨b, h.1⟩ ⟨j, h.2⟩ q else 0

/-- One tile's contribution, as the body computes it from the two blocks, is the sum of the contributions of the tile's rows. -/
theorem tile_sum (c : Dev nD) (t : Fin cfg0.N) (p q : Fin 256) :
    (∑ r : Fin 1024, Cert.Spec.unit (fun c' => kblk V c t (ix3 0 r c')) p * vblk V c t (ix3 0 r q))
      = ∑ r ∈ Finset.range 1024, term V c (t.val / 4) (1024 * (t.val % 4) + r) p q := by
  rw [← Fin.sum_univ_eq_sum_range (fun r => term V c (t.val / 4) (1024 * (t.val % 4) + r) p q) 1024]
  refine Finset.sum_congr rfl fun r _ => ?_
  have e1 : (fun c' => kblk V c t (ix3 0 r c')) = keyA V c ⟨t.val / 4, batch_lt t⟩ ⟨1024 * (t.val % 4) + r.val, row_lt t r⟩ :=
    funext fun c' => kblk_at V c t r c'
  rw [e1, vblk_at V c t r q]
  unfold term
  rw [dif_pos ⟨batch_lt t, row_lt t r⟩]

/-- THE ACCUMULATOR IN CLOSED FORM: after point n it holds the contributions of the rows below 1024 (n % 4 + 1) of batch n / 4. -/
theorem acc_closed (c : Dev nD) (p q : Fin 256) : ∀ (n : ℕ) (hn : n < cfg0.N),
    kvAcc V c n hn (ix2 p q) = ∑ j ∈ Finset.range (1024 * (n % 4 + 1)), term V c (n / 4) j p q := by
  intro n
  induction n with
  | zero =>
    intro hn
    refine (congrFun (kvAcc_open V c ⟨0, hn⟩ rfl) (ix2 p q)).trans ?_
    refine (tile_at (kblk V c ⟨0, hn⟩) (vblk V c ⟨0, hn⟩) (k0_pay1 (F := Ideal)) p q).trans ?_
    rw [zero_at, zero_add, tile_sum]
    refine Finset.sum_congr rfl fun r _ => ?_
    show term V c (0 / 4) (1024 * (0 % 4) + r) p q = term V c (0 / 4) r p q
    congr 1; omega
  | succ n ih =>
    intro hn
    by_cases h : (n + 1) % 4 = 0
    · refine (congrFun (kvAcc_open V c ⟨n + 1, hn⟩ h) (ix2 p q)).trans ?_
      refine (tile_at (kblk V c ⟨n + 1, hn⟩) (vblk V c ⟨n + 1, hn⟩) (k0_pay1 (F := Ideal)) p q).trans ?_
      rw [zero_at, zero_add, tile_sum]
      show ∑ r ∈ Finset.range 1024, term V c ((n + 1) / 4) (1024 * ((n + 1) % 4) + r) p q = _
      rw [h]
      refine Finset.sum_congr rfl fun r _ => ?_
      congr 1; omega
    · refine (congrFun (kvAcc_step V c ⟨n + 1, hn⟩ h) (ix2 p q)).trans ?_
      refine (tile_at (kblk V c ⟨n + 1, hn⟩) (vblk V c ⟨n + 1, hn⟩) _ p q).trans ?_
      rw [tile_sum]
      have e := ih (Nat.lt_of_succ_lt hn)
      refine (congrArg (· + _) e).trans ?_
      show (∑ j ∈ Finset.range (1024 * (n % 4 + 1)), term V c (n / 4) j p q)
          + ∑ r ∈ Finset.range 1024, term V c ((n + 1) / 4) (1024 * ((n + 1) % 4) + r) p q = _
      have d1 : n / 4 = (n + 1) / 4 := by omega
      have d2 : 1024 * ((n + 1) % 4) = 1024 * (n % 4 + 1) := by omega
      have d3 : 1024 * ((n + 1) % 4 + 1) = 1024 * (n % 4 + 1) + 1024 := by omega
      rw [d1, d2, d3, Finset.sum_range_add]

/-- At the last tile of a batch the accumulator holds the whole sum over the 4096 rows. -/
theorem acc_last (c : Dev nD) (t : Fin cfg0.N) (h : t.val % 4 = 3) (p q : Fin 256) :
    kvAcc V c t.val t.isLt (ix2 p q) = Cert.Spec.kv (keyA V c) (valA V c) ⟨t.val / 4, batch_lt t⟩ p q := by
  rw [acc_closed V c p q t.val t.isLt, h]
  unfold Cert.Spec.kv
  rw [← Fin.sum_univ_eq_sum_range (fun j => term V c (t.val / 4) j p q) 4096]
  refine Finset.sum_congr rfl fun j _ => ?_
  unfold term
  rw [dif_pos ⟨batch_lt t, j.isLt⟩]

/-- What the result array is claimed to hold: at (b, p, q) the sum over the 4096 rows of batch b. -/
abbrev kvG (c : Dev nD) : Buf (Elt Ideal) ((c : Thread nD τ).loc main_v0) :=
  fun i => Cert.Spec.kv (keyA V c) (valA V c) (i 0) (i 1) (i 2)

/-- WHAT A WRITING POINT WRITES BACK: at the last tile of batch b, block b of that array. -/
theorem flushed_eq (c : Dev nD) (t : Fin cfg0.N) (hf : (cfg0.win 2).flush t = true) :
    (dat0 V c).flushed 2 t = ((cfg0.win 2).blk t).view.read (Elt Ideal) (kvG V c) := by
  have h3 : t.val % 4 = 3 := (flush0_2 t).mp hf
  obtain ⟨-, -, -, -, -, -, e0, e1, e2⟩ := idx_facts t
  show (cfg0.win 2).cut (grid0.coords t) ((dat0 V c).after 2 t) = _
  rw [after0_2]
  funext y
  have hy : (cfg0.win 2).xinj (grid0.coords t) y = @ix3 1 256 256 0 (y 1) (y 2) := by
    funext a; apply Fin.ext
    match a with
    | ⟨0, _⟩ => show (y 0).val = 0; have h1 : (y 0).val < 1 := (y 0).isLt; omega
    | ⟨1, _⟩ => rfl
    | ⟨2, _⟩ => rfl
  show k0_pay3 (kvAcc V c t.val t.isLt) ((cfg0.win 2).xinj (grid0.coords t) y) = _
  rw [hy]
  refine (out_at _ (y 1) (y 2)).trans ?_
  refine (acc_last V c t h3 (y 1) (y 2)).trans ?_
  have h0 : (y 0).val < 1 := (y 0).isLt
  have a0 : (⟨t.val / 4, batch_lt t⟩ : Fin 8) = (((cfg0.win 2).blk t).view.emb y) 0 :=
    Fin.ext (by show t.val / 4 = win0_2.index t 0 * 1 + 1 * (y 0).val; omega)
  have a1 : (y 1 : Fin 256) = (((cfg0.win 2).blk t).view.emb y) 1 :=
    Fin.ext (by show (y 1).val = win0_2.index t 1 * 256 + 1 * (y 1).val; omega)
  have a2 : (y 2 : Fin 256) = (((cfg0.win 2).blk t).view.emb y) 2 :=
    Fin.ext (by show (y 2).val = win0_2.index t 2 * 256 + 1 * (y 2).val; omega)
  exact congr (congr (congrArg (Cert.Spec.kv (keyA V c) (valA V c)) a0) a1) a2

/-- THE WRITTEN BLOCKS TILE THE RESULT: entry (b, p, q) is in the block written at the last tile of batch b. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h8 : (i 0).val < 8 := (i 0).isLt
  have h1 : (i 1).val < 256 := (i 1).isLt
  have h2 : (i 2).val < 256 := (i 2).isLt
  have hb : 4 * (i 0).val + 3 < cfg0.N := by rw [N32]; omega
  obtain ⟨-, -, -, -, -, -, e0, e1, e2⟩ := idx_facts ⟨4 * (i 0).val + 3, hb⟩
  have e0' : win0_2.index ⟨4 * (i 0).val + 3, hb⟩ 0 = (4 * (i 0).val + 3) / 4 := e0
  refine ⟨⟨4 * (i 0).val + 3, hb⟩, (flush0_2 _).mpr (by show (4 * (i 0).val + 3) % 4 = 3; omega), ?_⟩
  show i ∈ ((View.whole main_v0).slice (win0_2.rect ⟨4 * (i 0).val + 3, hb⟩)).set
  rw [View.set_slice_whole, Rect.mem_set_unit]
  intro a
  match a with
  | ⟨0, _⟩ =>
    show win0_2.index ⟨4 * (i 0).val + 3, hb⟩ 0 * 1 ≤ (i 0).val ∧ (i 0).val < win0_2.index ⟨4 * (i 0).val + 3, hb⟩ 0 * 1 + 1
    omega
  | ⟨1, _⟩ =>
    show win0_2.index ⟨4 * (i 0).val + 3, hb⟩ 1 * 256 ≤ (i 1).val ∧ (i 1).val < win0_2.index ⟨4 * (i 0).val + 3, hb⟩ 1 * 256 + 256
    omega
  | ⟨2, _⟩ =>
    show win0_2.index ⟨4 * (i 0).val + 3, hb⟩ 2 * 256 ≤ (i 2).val ∧ (i 2).val < win0_2.index ⟨4 * (i 0).val + 3, hb⟩ 2 * 256 + 256
    omega

end Kv

/-- THE RESULT ARRAY after the first launch: at (b, p, q) the sum over j < 4096 of (unit key row j of batch b)(p) · value[b, j, q]. -/
theorem kv_final (c : Dev nD) :
    (dat0 (F := Ideal) V c).arrAt 2 cfg0.N
      = fun i => Cert.Spec.kv (Cert.Spec.at3 (V c main_arg1)) (Cert.Spec.at3 (V c main_arg2)) (i 0) (i 1) (i 2) :=
  (dat0 V c).arrAt_eq_of_cover 2 (Kv.kvG V c) (Kv.flushed_eq V c) (Kv.cover c)

end Cert.KernelIdeal.HandValue

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.CtxValue.lean ====
/-
  The second launch (the context product): what it leaves in its result array, entry by entry, over the extended reals.

  At grid point t = 4 b + n the body reads rows 1024 n … 1024 n + 1023 of batch b of the query and the whole
  [256, 256] matrix kv[b] the first launch left, scales each query row to unit length (its length floored at a small
  positive constant), multiplies the scaled rows by kv[b] and scales the product by 2⁻¹². So
      out[b, 1024 n + r, d] = (∑ c < 256, unit(query[b, 1024 n + r, :]) c · kv[b, c, d]) · 2⁻¹²,
  and since the 32 output blocks tile the [8, 4096, 256] array, that is the whole array.
-/
import proofs.«113710_j39152921870872_1_alg».proof.Proof.CtxFrame
import proofs.«113710_j39152921870872_1_alg».proof.Proof.Spec
import proofs.«113710_j39152921870872_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HandValue
open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

namespace Ctx

/-! ## Where the product's dimension numbers read their operands

The left operand [1024 × 256] is contracted along its second axis, the right operand [256 × 256] along its first:
entry (p, q) reads the left operand at (p, k) and the right at (k, q). -/

theorem lhs_ctx_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_ctx_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_ctx_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_ctx_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-! ## Column forms of the layout operations -/

/-- A vector of `a` entries cast to a column [a, 1] reads, at (i, u), entry i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry i. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The body's value at one entry -/

theorem pay_at (x0 : Vec Ideal S1x1024x256 .f32) (x1 : Vec Ideal S1x256x256 .f32) (r : Fin 1024) (d : Fin 256) :
    k1_pay1 (F := Ideal) x0 x1 (ix3 (0 : Fin 1) r d)
      = (∑ c : Fin 256, Cert.Spec.unit (fun c' => x0 (ix3 (0 : Fin 1) r c')) c * x1 (ix3 (0 : Fin 1) c d))
          * Ideal.ofBits .f32 0x39800000#32 := by
  unfold k1_pay1
  refine (shapeCast_ab_1ab_apply _ _ (0 : Fin 1) r d).trans ?_
  rw [mulf_apply, broadcast_apply]
  refine congrArg (· * Ideal.ofBits .f32 0x39800000#32) ?_
  refine (Idealize.ShloMosaic.MatmulAt.matmul_zero_at dot_S1024x256_S256x256_S1024x256_1_0_0_1_n_n rfl rfl lhs_ctx_0 lhs_ctx_1 rhs_ctx_0 rhs_ctx_1 none _ _ r d).trans ?_
  refine Finset.sum_congr rfl fun k _ => ?_
  refine congrArg₂ (· * ·) ?_ (shapeCast_1ab_ab_apply x1 _ k d)
  rw [truncf_apply, divf_apply]
  unfold Cert.Spec.unit
  refine congrArg₂ Ideal.div (shapeCast_1ab_ab_apply x0 _ r k) ?_
  refine (broadcastTo_a1_ab_apply _ _ r k).trans ?_
  rw [maximumf_apply, broadcast_apply]
  unfold Cert.Spec.rowNorm
  refine congrArg (fun z => max (Ideal.sqrt z) Cert.Spec.eps) ?_
  refine (shapeCast_a_a1_apply _ _ r (0 : Fin 1)).trans ?_
  refine (Ideal.multiReduction_add_single _ _ _ _ _ _).trans ?_
  rw [Ideal.ofBits_zero_f32, zero_add]
  refine Finset.sum_congr rfl fun c _ => ?_
  have hl : reduces_S1024x256_S1024.lift (ix1 r) c = ix2 r (c : Fin 256) :=
    funext fun a => Fin.ext (by match a with | ⟨0, _⟩ => rfl | ⟨1, _⟩ => rfl)
  rw [mulf_apply, hl]
  exact congrArg₂ (· * ·) (shapeCast_1ab_ab_apply x0 _ r c) (shapeCast_1ab_ab_apply x0 _ r c)

/-! ## One store over the whole block -/

theorem zero3 : (![0, 0, 0] : Fin 3 → Nat) = fun _ => 0 :=
  funext fun a => by match a with | ⟨0, _⟩ => rfl | ⟨1, _⟩ => rfl | ⟨2, _⟩ => rfl

/-- The output block is the body's value on the two blocks read. -/
theorem ctxOut_eq (x0 : Vec Ideal S1x1024x256 .f32) (x1 : Vec Ideal S1x256x256 .f32) :
    ctxOut x0 x1 = k1_pay1 (F := Ideal) x0 x1 := by
  unfold ctxOut
  rw [View.canon_unit_zero zero3]
  simp only [View.ld_unit_zero (S := S1x1024x256) zero3, View.ld_unit_zero (S := S1x256x256) zero3]

/-! ## Where the blocks sit in their arrays -/

variable (V : (c : Dev nD) → (b : Ref sig .tc) → Buf (Elt Ideal) ((c : Thread nD τ).loc b))

/-- The block indices at point t: batch t / 4 on the first axis of all three windows; row tile t % 4 on the second axis of
    the query and of the output, the whole second axis of kv; the whole third axis everywhere. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0 :=
  (by decide +kernel : ∀ t : Fin grid1.N, _)

/-- Row r of the query block at point t is row 1024 (t % 4) + r of batch t / 4. -/
theorem iblk_query (c : Dev nD) (t : Fin cfg1.N) (r : Fin 1024) (k : Fin 256) :
    iblk1 V c 0 t (ix3 (0 : Fin 1) r k)
      = V c main_arg0 (ix3 (⟨t.val / 4, by have : t.val < 32 := t.isLt; omega⟩ : Fin 8)
          (⟨1024 * (t.val % 4) + r.val, by have := r.isLt; omega⟩ : Fin 4096) k) := by
  show V c main_arg0 (((cfg1.win 0).blk t).view.emb (ix3 (0 : Fin 1) r k)) = _
  obtain ⟨e0, e1, e2, -⟩ := idx_facts t
  refine congrArg (V c main_arg0) (funext fun a => Fin.ext ?_)
  match a with
  | ⟨0, _⟩ => show win1_0.index t (0 : Fin 3) * 1 + 1 * (0 : Fin 1).val = t.val / 4; rw [e0]; simp
  | ⟨1, _⟩ => show win1_0.index t (1 : Fin 3) * 1024 + 1 * r.val = 1024 * (t.val % 4) + r.val; omega
  | ⟨2, _⟩ => show win1_0.index t (2 : Fin 3) * 256 + 1 * k.val = k.val; omega

/-- The kv block at point t is the whole matrix of batch t / 4. -/
theorem iblk_kv (c : Dev nD) (t : Fin cfg1.N) (k d : Fin 256) :
    iblk1 V c 1 t (ix3 (0 : Fin 1) k d)
      = V c main_v0 (ix3 (⟨t.val / 4, by have : t.val < 32 := t.isLt; omega⟩ : Fin 8) k d) := by
  show V c main_v0 (((cfg1.win 1).blk t).view.emb (ix3 (0 : Fin 1) k d)) = _
  obtain ⟨-, -, -, e0, e1, e2, -⟩ := idx_facts t
  refine congrArg (V c main_v0) (funext fun a => Fin.ext ?_)
  match a with
  | ⟨0, _⟩ => show win1_1.index t (0 : Fin 3) * 1 + 1 * (0 : Fin 1).val = t.val / 4; rw [e0]; simp
  | ⟨1, _⟩ => show win1_1.index t (1 : Fin 3) * 256 + 1 * k.val = k.val; omega
  | ⟨2, _⟩ => show win1_1.index t (2 : Fin 3) * 256 + 1 * d.val = d.val; omega

/-! ## From blocks to the array -/

/-- What the result array ends holding: the context product scaled by 2⁻¹². -/
abbrev ctxScaled (c : Dev nD) : S8x4096x256.Idx → EReal := fun i =>
  Cert.Spec.ctx (Cert.Spec.at3 (V c main_arg0)) (Cert.Spec.at3 (V c main_v0)) (i 0) (i 1) (i 2)
    * Ideal.ofBits .f32 0x39800000#32

/-- What point t writes back is block t of `ctxScaled`. -/
theorem flushed_eq (c : Dev nD) (t : Fin cfg1.N) :
    (dat1 (F := Ideal) V c).flushed 2 t = ((cfg1.win 2).blk t).view.read (Elt Ideal) (ctxScaled V c) := by
  show (cfg1.win 2).cut (grid1.coords t) ((dat1 (F := Ideal) V c).after 2 t) = _
  rw [after1_2, ctxOut_eq]
  funext j
  obtain ⟨u, r, d, rfl⟩ : ∃ (u : Fin 1) (r : Fin 1024) (d : Fin 256), j = ix3 u r d := ⟨j 0, j 1, j 2, eq_ix3 j⟩
  obtain rfl : u = 0 := Fin.ext (by omega)
  show k1_pay1 (F := Ideal) (iblk1 V c 0 t) (iblk1 V c 1 t) (ix3 (0 : Fin 1) r d)
    = ctxScaled V c (((cfg1.win 2).blk t).view.emb (ix3 (0 : Fin 1) r d))
  obtain ⟨-, -, -, -, -, -, e0, e1, e2⟩ := idx_facts t
  have he : ((cfg1.win 2).blk t).view.emb (ix3 (0 : Fin 1) r d)
      = ix3 (⟨t.val / 4, by have : t.val < 32 := t.isLt; omega⟩ : Fin 8) (⟨1024 * (t.val % 4) + r.val, by have := r.isLt; omega⟩ : Fin 4096) d :=
    funext fun a => Fin.ext (by
      match a with
      | ⟨0, _⟩ => show win1_2.index t (0 : Fin 3) * 1 + 1 * (0 : Fin 1).val = t.val / 4; rw [e0]; simp
      | ⟨1, _⟩ => show win1_2.index t (1 : Fin 3) * 1024 + 1 * r.val = 1024 * (t.val % 4) + r.val; omega
      | ⟨2, _⟩ => show win1_2.index t (2 : Fin 3) * 256 + 1 * d.val = d.val; omega)
  rw [he, pay_at]
  refine congrArg (· * Ideal.ofBits .f32 0x39800000#32) ?_
  unfold Cert.Spec.ctx
  refine Finset.sum_congr rfl fun k _ => ?_
  refine congrArg₂ (· * ·) (congrArg (fun row => Cert.Spec.unit row k) (funext fun k' => iblk_query V c t r k')) (iblk_kv V c t k d)

/-- An index of the array is in point t's block iff each coordinate is in the block's range on its axis. -/
theorem mem_blk (t : Fin cfg1.N) (i : S8x4096x256.Idx) :
    i ∈ ((cfg1.win 2).blk t).view.set
      ↔ ∀ a : Fin 3, win1_2.index t a * S1x1024x256.size a ≤ (i a).val
          ∧ (i a).val < win1_2.index t a * S1x1024x256.size a + S1x1024x256.size a := by
  show i ∈ ((View.whole main_v1).slice (win1_2.rect t)).set ↔ _
  rw [View.set_slice_whole, Rect.mem_set_unit]
  exact Iff.rfl

/-- Entry (b, j, d) of the array is in the block of point 4 b + j / 1024, and every point writes its block back. -/
theorem cover (i : S8x4096x256.Idx) :
    ∃ t : Fin cfg1.N, (cfg1.win 2).flush t = true ∧ i ∈ ((cfg1.win 2).blk t).view.set := by
  have h0 : (i 0).val < 8 := (i 0).isLt
  have h1 : (i 1).val < 4096 := (i 1).isLt
  have h2 : (i 2).val < 256 := (i 2).isLt
  obtain ⟨t, ht⟩ : ∃ t : Fin cfg1.N, t.val = 4 * (i 0).val + (i 1).val / 1024 :=
    ⟨⟨4 * (i 0).val + (i 1).val / 1024, by show _ < 32; omega⟩, rfl⟩
  refine ⟨t, flush1_2 t, ?_⟩
  rw [mem_blk]
  obtain ⟨-, -, -, -, -, -, e0, e1, e2⟩ := idx_facts t
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 256 ≤ (i 2).val ∧ (i 2).val < win1_2.index t (2 : Fin 3) * 256 + 256; omega

end Ctx

open Ctx in
/-- The result array after the launch: at (b, j, d) the normalised query row (b, j) against column d of kv[b], times 2⁻¹². -/
theorem ctx_final (V : (c : Dev nD) → (b : Ref sig .tc) → Buf (Elt Ideal) ((c : Thread nD τ).loc b)) (c : Dev nD) :
    (dat1 (F := Ideal) V c).arrAt 2 cfg1.N
      = fun i => Cert.Spec.ctx (Cert.Spec.at3 (V c main_arg0)) (Cert.Spec.at3 (V c main_v0)) (i 0) (i 1) (i 2)
                  * Ideal.ofBits .f32 0x39800000#32 :=
  (dat1 (F := Ideal) V c).arrAt_eq_of_cover 2 (ctxScaled V c) (fun t _ => flushed_eq V c t) cover

end Cert.KernelIdeal.HandValue

end
-- ==== Proof.RefValue.lean ====
import proofs.«113710_j39152921870872_1_alg».proof.Proof.Gen.ReferenceIdeal.Read
import proofs.«113710_j39152921870872_1_alg».proof.Proof.Spec

/-
  The reference program computes the specification.

  Read entry by entry, the reference divides each row of `query` and of `key` by its floored length
  (`Spec.unit`), contracts the normalised keys with the values over the 4096 positions (`Spec.kv`),
  contracts the normalised query row with that over the 256 channels (`Spec.ctx`), and divides by 4096.
  Each lemma below reads one stage of the reference at an index given by its three coordinates.
-/

noncomputable section

namespace Cert.ReferenceIdeal.RefValue

open Cert.ReferenceIdeal Cert.ReferenceIdeal.Gen Cert.ReferenceIdeal.Read Idealize.ShloMosaic Idealize.ShloMosaic.ValueIdx

/-- The floored length of row `(b, n)` of `query`: `max (sqrt (0 + ∑ c, x c * x c)) ε`, held at `(b, n, 0)`. -/
theorem len0 (x0 : (⟨S8x4096x256, .f32⟩ : BufTy).Contents (Elt Ideal)) (b : Fin 8) (n : Fin 4096) (z : Fin 1) :
    val_main_v5 (F := Ideal) x0 (ix3 b n z) = Cert.Spec.rowNorm (Cert.Spec.at3 x0 b n) := by
  rw [val_main_v5_apply, val_main_v3_apply, val_main_v2_apply, val_main_v1_apply, val_main_cst_apply,
    val_main_v4_apply, val_main_cst_0_apply]
  simp only [Ideal.maximumf_def, Ideal.hostUnary_sqrt_def, Ideal.ofBits_def]
  unfold Cert.Spec.rowNorm
  refine congrArg (fun s => max (Ideal.sqrt (Ideal.ofBits .f32 0x00000000#32 + s)) Cert.Spec.eps)
    (Finset.sum_congr rfl fun c _ => ?_)
  have e : idx_main_v1 (idx_main_v2 (ix3 b n z)) c = ix3 b n c :=
    funext fun a => Fin.ext (by match a with | ⟨0, _⟩ => rfl | ⟨1, _⟩ => rfl | ⟨2, _⟩ => rfl)
  rw [val_main_v0_apply, Ideal.mulf_def, e]

/-- The same for row `(b, n)` of `key`. -/
theorem len1 (x1 : (⟨S8x4096x256, .f32⟩ : BufTy).Contents (Elt Ideal)) (b : Fin 8) (n : Fin 4096) (z : Fin 1) :
    val_main_v13 (F := Ideal) x1 (ix3 b n z) = Cert.Spec.rowNorm (Cert.Spec.at3 x1 b n) := by
  rw [val_main_v13_apply, val_main_v11_apply, val_main_v10_apply, val_main_v9_apply, val_main_cst_1_apply,
    val_main_v12_apply, val_main_cst_2_apply]
  simp only [Ideal.maximumf_def, Ideal.hostUnary_sqrt_def, Ideal.ofBits_def]
  unfold Cert.Spec.rowNorm
  refine congrArg (fun s => max (Ideal.sqrt (Ideal.ofBits .f32 0x00000000#32 + s)) Cert.Spec.eps)
    (Finset.sum_congr rfl fun c _ => ?_)
  have e : idx_main_v9 (idx_main_v10 (ix3 b n z)) c = ix3 b n c :=
    funext fun a => Fin.ext (by match a with | ⟨0, _⟩ => rfl | ⟨1, _⟩ => rfl | ⟨2, _⟩ => rfl)
  rw [val_main_v8_apply, Ideal.mulf_def, e]

/-- The normalised `query` at `(b, n, c)`: the entry over its row's floored length. -/
theorem nrm0 (x0 : (⟨S8x4096x256, .f32⟩ : BufTy).Contents (Elt Ideal)) (b : Fin 8) (n : Fin 4096) (c : Fin 256) :
    val_main_v7 (F := Ideal) x0 (ix3 b n c) = Cert.Spec.unit (Cert.Spec.at3 x0 b n) c := by
  have e : idx_main_v6 (ix3 b n c) = ix3 b n (0 : Fin 1) :=
    funext fun a => Fin.ext (by match a with | ⟨0, _⟩ => rfl | ⟨1, _⟩ => rfl | ⟨2, _⟩ => rfl)
  rw [val_main_v7_apply, val_main_v6_apply, e, len0, Ideal.hostDivf_def]
  rfl

/-- The normalised `key` at `(b, n, c)`. -/
theorem nrm1 (x1 : (⟨S8x4096x256, .f32⟩ : BufTy).Contents (Elt Ideal)) (b : Fin 8) (n : Fin 4096) (c : Fin 256) :
    val_main_v15 (F := Ideal) x1 (ix3 b n c) = Cert.Spec.unit (Cert.Spec.at3 x1 b n) c := by
  have e : idx_main_v14 (ix3 b n c) = ix3 b n (0 : Fin 1) :=
    funext fun a => Fin.ext (by match a with | ⟨0, _⟩ => rfl | ⟨1, _⟩ => rfl | ⟨2, _⟩ => rfl)
  rw [val_main_v15_apply, val_main_v14_apply, e, len1, Ideal.hostDivf_def]
  rfl

/-- The first contraction at `(b, c, d)`: the normalised keys against the values, over the 4096 positions. -/
theorem kv_at (x1 x2 : (⟨S8x4096x256, .f32⟩ : BufTy).Contents (Elt Ideal)) (b : Fin 8) (c d : Fin 256) :
    val_main_v16 (F := Ideal) x1 x2 (ix3 b c d)
      = Cert.Spec.kv (Cert.Spec.at3 x1) (Cert.Spec.at3 x2) b c d := by
  rw [val_main_v16_apply]
  unfold Cert.Spec.kv
  refine Finset.sum_congr rfl fun j _ => ?_
  have el : lidx_main_v16 (ix3 b c d) j = ix3 b j c :=
    funext fun a => Fin.ext (by match a with | ⟨0, _⟩ => rfl | ⟨1, _⟩ => rfl | ⟨2, _⟩ => rfl)
  have er : ridx_main_v16 (ix3 b c d) j = ix3 b j d :=
    funext fun a => Fin.ext (by match a with | ⟨0, _⟩ => rfl | ⟨1, _⟩ => rfl | ⟨2, _⟩ => rfl)
  rw [el, er, nrm1]

/-- The result at `(b, n, d)`: the normalised query row against `kv b`, over the 256 channels, divided by 4096. -/
theorem ref_at (x0 x1 x2 : (⟨S8x4096x256, .f32⟩ : BufTy).Contents (Elt Ideal)) (b : Fin 8) (n : Fin 4096) (d : Fin 256) :
    val_main_v19 (F := Ideal) x0 x1 x2 (ix3 b n d)
      = Ideal.div (Cert.Spec.ctx (Cert.Spec.at3 x0) (Cert.Spec.kv (Cert.Spec.at3 x1) (Cert.Spec.at3 x2)) b n d)
          (Ideal.ofBits .f32 0x45800000#32) := by
  rw [val_main_v19_apply, val_main_v18_apply, val_main_cst_3_apply, val_main_v17_apply, Ideal.hostDivf_def,
    Ideal.ofBits_def]
  refine congrArg (fun s => Ideal.div s (Ideal.ofBits .f32 0x45800000#32)) ?_
  unfold Cert.Spec.ctx
  refine Finset.sum_congr rfl fun c _ => ?_
  have el : lidx_main_v17 (ix3 b n d) c = ix3 b n c :=
    funext fun a => Fin.ext (by match a with | ⟨0, _⟩ => rfl | ⟨1, _⟩ => rfl | ⟨2, _⟩ => rfl)
  have er : ridx_main_v17 (ix3 b n d) c = ix3 b c d :=
    funext fun a => Fin.ext (by match a with | ⟨0, _⟩ => rfl | ⟨1, _⟩ => rfl | ⟨2, _⟩ => rfl)
  rw [el, er, nrm0, kv_at]

/-- The reference's result at any index is the specification's value there. -/
theorem ref_eq (x0 x1 x2 : (⟨S8x4096x256, .f32⟩ : BufTy).Contents (Elt Ideal)) (i : S8x4096x256.Idx) :
    val_main_v19 (F := Ideal) x0 x1 x2 i
      = Ideal.div (Cert.Spec.ctx (Cert.Spec.at3 x0) (Cert.Spec.kv (Cert.Spec.at3 x1) (Cert.Spec.at3 x2)) (i 0) (i 1) (i 2))
          (Ideal.ofBits .f32 0x45800000#32) := by
  exact (congrArg (val_main_v19 (F := Ideal) x0 x1 x2) (eq_ix3 i)).trans (ref_at x0 x1 x2 (i 0) (i 1) (i 2))

end Cert.ReferenceIdeal.RefValue

end
-- ==== Proof.Algebraic.lean ====
/-
  The two idealized programs compute one function of the arguments.

  The kernel program's result array ends at `(ctx q (kv k v)) · 2⁻¹²`: the second launch leaves `ctx` of the query and of
  what it finds in the first launch's result array, times the exact single-precision reciprocal of 4096, and the first
  launch leaves `kv` of the key and value arrays there. The reference ends at `ctx q (kv k v) / 4096`. On every extended
  real, dividing by 4096 is multiplying by its reciprocal, so the two agree entry by entry; no finiteness is used.
-/
import proofs.«113710_j39152921870872_1_alg».proof.Defs
import proofs.«113710_j39152921870872_1_alg».proof.Proof.Run
import proofs.«113710_j39152921870872_1_alg».proof.Proof.KvValue
import proofs.«113710_j39152921870872_1_alg».proof.Proof.CtxValue
import proofs.«113710_j39152921870872_1_alg».proof.Proof.RefValue
import proofs.«113710_j39152921870872_1_alg».proof.Proof.Gen.Pre_finite_inputs

noncomputable section

open Idealize.ShloMosaic Idealize.ShloMosaic.TcCoe Idealize.SL.Sem

namespace Cert.KernelIdeal.HandValue

open Cert.KernelIdeal Cert.KernelIdeal.Gen Cert.KernelIdeal.Hand

variable (m : (ℓ : Loc nD τ sig) → Buf (Elt Ideal) ℓ)

/-- The common result, as a function of the three argument arrays on core `c`. -/
def result (c : Dev nD) : Buf (Elt Ideal) ((c.tc : Thread nD τ).loc main_v1) := fun i =>
  Cert.Spec.ctx (Cert.Spec.at3 (m ((c.tc : Thread nD τ).loc main_arg0)))
      (Cert.Spec.kv (Cert.Spec.at3 (m ((c.tc : Thread nD τ).loc main_arg1))) (Cert.Spec.at3 (m ((c.tc : Thread nD τ).loc main_arg2))))
      (i 0) (i 1) (i 2)
    * Ideal.ofBits .f32 0x39800000#32

/-- What the second launch's write-backs leave is that function: it finds the query as launched and the first launch's
    result at `kv` of the key and value arrays. -/
theorem final_eq (c : Dev nD) : (dat1 (F := Ideal) (E1 m) c).arrAt 2 cfg1.N = result m c := by
  rw [ctx_final (E1 m) c, E1_main_arg0 m c, E1_main_v0 m c, kv_final (E0 m) c]
  rfl

/-- The kernel program's run, with the result array named. -/
theorem run (ρ : Dev nD → PrngReg) : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final_eq m c), (h c).2⟩) (run_main (F := Ideal) m ρ)

end Cert.KernelIdeal.HandValue

namespace Cert.Proof.Claims

/-- The reference's result term is the same function of arguments that agree. -/
theorem ref_result (x0 x1 x2 : (⟨Cert.ReferenceIdeal.S8x4096x256, .f32⟩ : BufTy).Contents (Elt Ideal)) :
    Cert.ReferenceIdeal.Read.val_main_v19 (F := Ideal) x0 x1 x2
      = fun i => Cert.Spec.ctx (Cert.Spec.at3 x0) (Cert.Spec.kv (Cert.Spec.at3 x1) (Cert.Spec.at3 x2)) (i 0) (i 1) (i 2)
          * Ideal.ofBits .f32 0x39800000#32 := by
  funext i
  rw [Cert.ReferenceIdeal.RefValue.ref_eq, Cert.Spec.div_4096]

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.HandValue.result m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, ref_result, (hagree c).1, (hagree c).2.1, (hagree c).2.2]
  rfl

end Cert.Proof.Claims

end
-- ==== Proof.lean ====
/-
  The certificate's five claims.

  Each kernel program — the word-level one and the idealized one — is two launches run one after the other; its frame is
  the run of the two launches read at the argument arrays, which no launch writes. The reference is a straight line of
  host operations, whose run leaves the arguments alone. The idealized kernel is the word-level kernel's own text read over
  the extended reals: nothing was rewritten, so there is nothing to preserve. The algebraic claim: both idealized programs
  end with `ctx q (kv k v)` scaled by 1/4096, entry by entry.
-/
import proofs.«113710_j39152921870872_1_alg».proof.Defs
import proofs.«113710_j39152921870872_1_alg».proof.Proof.Gen.Kernel
import proofs.«113710_j39152921870872_1_alg».proof.Proof.Gen.KernelIdeal
import proofs.«113710_j39152921870872_1_alg».proof.Proof.Gen.ReferenceIdeal
import proofs.«113710_j39152921870872_1_alg».proof.Proof.Gen.Pre_finite_inputs
import proofs.«113710_j39152921870872_1_alg».proof.Proof.Gen.ReferenceIdeal.Run
import proofs.«113710_j39152921870872_1_alg».proof.Proof.Bits.Run
import proofs.«113710_j39152921870872_1_alg».proof.Proof.Run
import proofs.«113710_j39152921870872_1_alg».proof.Proof.Algebraic

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Hand.frame m ρ

theorem frame_kernelIdeal : @Cert.frame_KernelIdeal Cert.KernelIdeal.Gen.facts Cert.Pre_finite_inputs.Gen.facts :=
  fun m ρ _ => Cert.KernelIdeal.Hand.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Proof.Claims.algebraic⟩

end Cert.Proof

end
